-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x64x1024 : S_.BroadcastsInDim S8x64x1024 (![] : Fin 0 → Fin S8x64x1024.rank)
  reducesTo_S8x64x1024_S_d0_1_2 : S8x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024 .f32) (main_arg8 : FVec F S1x2048 .f32) (main_arg9 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1x2048 .f32 := Host.absf main_arg8
  let main_cst_14 : FVec F S_ .f32 := constant S_ .f32 0x7F800000#32
  let main_v40 : FVec F S1x2048 .f32 := broadcastInDim S1x2048 ![] bcast_S_S1x2048 main_cst_14
  let main_v41 : IVec S1x2048 1 := cmpf .olt main_v39 main_v40
  let main_c_15 : IVec S_ 1 := constantI S_ 1 1#1
  let main_v42 : IVec S_ 1 := (fun x v => Host.reduce IntOp.andi x v reducesTo_S1x2048_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1x2048 .f32) (main_arg9 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8x4096x1024 .f32) (main_arg1 : FVec F S8x64x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1x2048 .f32) (main_arg9 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x64x1024 .f32 := Host.absf main_arg1
  let main_cst_0 : FVec F S_ .f32 := constant S_ .f32 0x7F800000#32
  let main_v5 : FVec F S8x64x1024 .f32 := broadcastInDim S8x64x1024 ![] bcast_S_S8x64x1024 main_cst_0
  let main_v6 : IVec S8x64x1024 1 := cmpf .olt main_v4 main_v5
  let main_c_1 : IVec S_ 1 := constantI S_ 1 1#1
  let main_v7 : IVec S_ 1 := (fun x v => Host.reduce IntOp.andi x v reducesTo_S8x64x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S1x1024 : Shape := ⟨2, ![1, 1024]⟩
abbrev S1024x1 : Shape := ⟨2, ![1024, 1]⟩
abbrev S1x512x1024 : Shape := ⟨3, ![1, 512, 1024]⟩
abbrev S1x64x1024 : Shape := ⟨3, ![1, 64, 1024]⟩
abbrev S1024x64 : Shape := ⟨2, ![1024, 64]⟩
abbrev S64x1024 : Shape := ⟨2, ![64, 1024]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩
abbrev S1x1 : Shape := ⟨2, ![1, 1]⟩

abbrev nBuf : Space → Nat
  | .hbm => 23
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x2048, .f32⟩
  | .hbm, ⟨9, _⟩ => ⟨S1, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024x1, .f32⟩
  | .hbm, ⟨18, _⟩ => ⟨S1024x1, .bf16⟩
  | .hbm, ⟨19, _⟩ => ⟨S1x1024, .f32⟩
  | .hbm, ⟨20, _⟩ => ⟨S1024x1, .f32⟩
  | .hbm, ⟨21, _⟩ => ⟨S1024x1, .bf16⟩
  | .hbm, ⟨22, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x64x1024, .f32⟩
  | .local _ .vmem, ⟨3, _⟩ => ⟨S1x64x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1024x1, .bf16⟩
  | .local _ .vmem, ⟨11, _⟩ => ⟨S1024x1, .bf16⟩
  | .local _ .vmem, ⟨12, _⟩ => ⟨S1, .f32⟩
  | .local _ .vmem, ⟨13, _⟩ => ⟨S1x512x1024, .f32⟩
  | .local _ .vmem, ⟨14, _⟩ => ⟨S1x512x1024, .f32⟩
  | .local _ .vmem, ⟨15, _⟩ => ⟨S1024x64, .bf16⟩
  | .local _ .vmem, ⟨16, _⟩ => ⟨S64x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  transposes_S1024x1024_S1024x1024_1_0 : S1024x1024.Transposes [1, 0] S1024x1024
  bitsLt_bf16_f32 : FTy.bits .bf16 < FTy.bits .f32
  slices_S1x2048_S1x1024_0_0 : S1x2048.Slices ![0, 0] S1x1024
  transposes_S1x1024_S1024x1_1_0 : S1x1024.Transposes [1, 0] S1024x1
  slices_S1x2048_S1x1024_0_1024 : S1x2048.Slices ![0, 1024] S1x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  transposes_S64x1024_p1_0_S1024x64 : S64x1024.Transposes [1, 0] S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  packedbf16_S64x1024_S64x1024_0_0 : (Rect.unit (s := S64x1024) ![0, 0] S64x1024.size inb_S64x1024_S64x1024_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  reduces_S512x64_S512 : S512x64.Reduces [1] S512
  shapeCasts_S512_S512x1 : S512.ShapeCasts S512x1
  broadcasts_S512x1_S512x64 : S512x1.Broadcasts S512x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  broadcasts_S512x1_S512x1024 : S512x1.Broadcasts S512x1024
  shapeCasts_S512x1024_S1x512x1024 : S512x1024.ShapeCasts S1x512x1024
  dot_S64x1024_S1024x1024_S64x1024_1_0_0_1_n_n_wf : DotDims.WF S64x1024 S1024x1024 S64x1024 [1] [0] [0] [1] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x1024.size a
  hwx0_1 : ∀ i : grid0.Coords, EltTy.bits .f32 = 32 ∨ (Rect.block (s := S8x64x1024) S1x64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S1024x1.size a
  hwx0_8 : ∀ i : grid0.Coords, EltTy.bits .bf16 = 32 ∨ (Rect.block (s := S1024x1) S1024x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S1024x1.size a
  hwx0_9 : ∀ i : grid0.Coords, EltTy.bits .bf16 = 32 ∨ (Rect.block (s := S1024x1) S1024x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512x1024.size a ≤ S8x4096x1024.size a
  hwx0_11 : ∀ i : grid0.Coords, EltTy.bits .f32 = 32 ∨ (Rect.block (s := S8x4096x1024) S1x512x1024.size (cc0_transform_11 i) (hinb0_11 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1024x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1024x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x64x1024 : Shape := ⟨3, ![8, 64, 1024]⟩
abbrev S1024x1024 : Shape := ⟨2, ![1024, 1024]⟩
abbrev S1024 : Shape := ⟨1, ![1024]⟩
abbrev S1x2048 : Shape := ⟨2, ![1, 2048]⟩
abbrev S1 : Shape := ⟨1, ![1]⟩
abbrev S1x1x1024 : Shape := ⟨3, ![1, 1, 1024]⟩
abbrev S8x4096x64 : Shape := ⟨3, ![8, 4096, 64]⟩
abbrev S_ : Shape := ⟨0, ![]⟩
abbrev S8x4096 : Shape := ⟨2, ![8, 4096]⟩
abbrev S8x4096x1 : Shape := ⟨3, ![8, 4096, 1]⟩
abbrev S8x4096x2048 : Shape := ⟨3, ![8, 4096, 2048]⟩
abbrev S1x1x1 : Shape := ⟨3, ![1, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x64x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x2048, .f32⟩
  | .hbm, ⟨9, _⟩ => ⟨S1, .f32⟩
  | .hbm, ⟨10, _⟩ => ⟨S8x4096x1024, .f32⟩
  | .hbm, ⟨11, _⟩ => ⟨S1x1x1024, .f32⟩
  | .hbm, ⟨12, _⟩ => ⟨S8x4096x1024, .f32⟩
  | .hbm, ⟨13, _⟩ => ⟨S8x4096x1024, .f32⟩
  | .hbm, ⟨14, _⟩ => ⟨S8x64x1024, .f32⟩
  | .hbm, ⟨15, _⟩ => ⟨S1x1x1024, .f32⟩
  | .hbm, ⟨16, _⟩ => ⟨S8x64x1024, .f32⟩
  | .hbm, ⟨17, _⟩ => ⟨S8x64x1024, .f32⟩
  | .hbm, ⟨18, _⟩ => ⟨S8x64x1024, .f32⟩
  | .hbm, ⟨19, _⟩ => ⟨S1x1x1024, .f32⟩
  | .hbm, ⟨20, _⟩ => ⟨S8x64x1024, .f32⟩
  | .hbm, ⟨21, _⟩ => ⟨S8x64x1024, .f32⟩
  | .hbm, ⟨22, _⟩ => ⟨S8x4096x64, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096x1, .f32⟩
  | .hbm, ⟨29, _⟩ => ⟨S8x4096x64, .f32⟩
  | .hbm, ⟨30, _⟩ => ⟨S8x4096x64, .f32⟩
  | .hbm, ⟨31, _⟩ => ⟨S8x4096x64, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x64, .f32⟩
  | .hbm, ⟨36, _⟩ => ⟨S8x4096x64, .f32⟩
  | .hbm, ⟨37, _⟩ => ⟨S_, .f32⟩
  | .hbm, ⟨38, _⟩ => ⟨S_, .f32⟩
  | .hbm, ⟨39, _⟩ => ⟨S8x4096x64, .f32⟩
  | .hbm, ⟨40, _⟩ => ⟨S8x4096x64, .f32⟩
  | .hbm, ⟨41, _⟩ => ⟨S8x4096x1024, .f32⟩
  | .hbm, ⟨42, _⟩ => ⟨S8x4096x1024, .f32⟩
  | .hbm, ⟨43, _⟩ => ⟨S8x4096x2048, .f32⟩
  | .hbm, ⟨44, _⟩ => ⟨S8x4096x1, .f32⟩
  | .hbm, ⟨45, _⟩ => ⟨S1x1x1, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S1x1x1024_S8x64x1024_0_1_2 : S1x1x1024.BroadcastsInDim S8x64x1024 (![0, 1, 2] : Fin 3 → Fin S8x64x1024.rank)
  reducesTo_S8x4096x64_S8x4096_d2 : S8x4096x64.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x64_0_1_2 : S8x4096x1.BroadcastsInDim S8x4096x64 (![0, 1, 2] : Fin 3 → Fin S8x4096x64.rank)
  bcast_S_S8x4096x64 : S_.BroadcastsInDim S8x4096x64 (![] : Fin 0 → Fin S8x4096x64.rank)
  concatenates_S8x4096x1024_S8x4096x1024_S8x4096x2048_d2 : Shape.Concatenates [S8x4096x1024, S8x4096x1024] S8x4096x2048 2
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []
  dot_S8x64x1024_S1024x1024_S8x64x1024_2_1_01_0_n_n_wf : DotDims.WF S8x64x1024 S1024x1024 S8x64x1024 [2] [1] [0, 1] [0] [] []
  dot_S8x4096x1024_S8x64x1024_S8x4096x64_2_2_1_1_0_0_wf : DotDims.WF S8x4096x1024 S8x64x1024 S8x4096x64 [2] [2] [1] [1] [0] [0]
  dot_S8x4096x64_S8x64x1024_S8x4096x1024_2_1_1_2_0_0_wf : DotDims.WF S8x4096x64 S8x64x1024 S8x4096x1024 [2] [1] [1] [2] [0] [0]
  dot_S8x4096x2048_S1x2048_S8x4096x1_2_1_01_0_n_n_wf : DotDims.WF S8x4096x2048 S1x2048 S8x4096x1 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x64x1024_S1024x1024_S8x64x1024_2_1_01_0_n_n : DotDims S8x64x1024 S1024x1024 S8x64x1024 where
  lhsContracting := [2]
  rhsContracting := [1]
  lhsNonContracting := [0, 1]
  rhsNonContracting := [0]
  lhsBatch := []
  rhsBatch := []
  wf := dot_S8x64x1024_S1024x1024_S8x64x1024_2_1_01_0_n_n_wf
def dot_S8x4096x1024_S8x64x1024_S8x4096x64_2_2_1_1_0_0 : DotDims S8x4096x1024 S8x64x1024 S8x4096x64 where
  lhsContracting := [2]
  rhsContracting := [2]
  lhsNonContracting := [1]
  rhsNonContracting := [1]
  lhsBatch := [0]
  rhsBatch := [0]
  wf := dot_S8x4096x1024_S8x64x1024_S8x4096x64_2_2_1_1_0_0_wf
def dot_S8x4096x64_S8x64x1024_S8x4096x1024_2_1_1_2_0_0 : DotDims S8x4096x64 S8x64x1024 S8x4096x1024 where
  lhsContracting := [2]
  rhsContracting := [1]
  lhsNonContracting := [1]
  rhsNonContracting := [2]
  lhsBatch := [0]
  rhsBatch := [0]
  wf := dot_S8x4096x64_S8x64x1024_S8x4096x1024_2_1_1_2_0_0_wf
def dot_S8x4096x2048_S1x2048_S8x4096x1_2_1_01_0_n_n : DotDims S8x4096x2048 S1x2048 S8x4096x1 where
  lhsContracting := [2]
  rhsContracting := [1]
  lhsNonContracting := [0, 1]
  rhsNonContracting := [0]
  lhsBatch := []
  rhsBatch := []
  wf := dot_S8x4096x2048_S1x2048_S8x4096x1_2_1_01_0_n_n_wf

class Facts : Prop extends Facts₀ where

variable [Facts]
-- ==== Proof.Pieces.lean ====
/-
  What one grid point leaves behind, as values. At a batch's first point the body stores the transposed key projection
  and the value projection of the batch's x block into the two scratch buffers and then reads them back; at the other
  points it reads what the scratch buffers already hold. Either way the stored block is one function of the input blocks
  and of the two scratch contents the attention reads.
-/
import proofs.«125770_j36558761624275_1_alg».proof.Proof.Gen.KernelIdeal.Frame
import Idealize.ShloMosaic.Lib.Pipeline.Value

set_option maxRecDepth 16384

noncomputable section

namespace Cert.Attn

open Idealize.ShloMosaic Idealize.ShloMosaic.TcCoe Idealize.ShloMosaic.Tactic
open Idealize.SL Idealize.SL.Sem
open Cert.KernelIdeal Cert.KernelIdeal.Gen

variable {F : FTy → Type} [FloatOps F]

/-- The stored block as a function of the input blocks and of the contents of the key and value scratch buffers. -/
def blockOf (x0 : Vec F S1x512x1024 .f32) (x1 : Vec F S1x64x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1 .bf16) (x9 : Vec F S1024x1 .bf16) (x10 : Vec F S1 .f32) (ks : Vec F S1024x64 .bf16) (vs : Vec F S64x1024 .bf16) : Vec F S1x512x1024 .f32 :=
  k0_pay1 (k0_pay5 x0) (k0_pay6 x0) (k0_pay7 x0 x2 x3 ks vs) (k0_pay8 x0 x2 x3 ks vs) (k0_pay9 x8) x9 x10

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A batch's first point leaves the transposed key projection in the key scratch. -/
theorem sout0_A_0_eq (c : Dev nD) (i : grid0.Coords) (arg2 : Memref sig .tc .vmem S1x512x1024 .f32) (harg2 : arg2.IsWhole) (arg3 : Memref sig .tc .vmem S1x64x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1 .bf16) (harg10 : arg10.IsWhole) (arg11 : Memref sig .tc .vmem S1024x1 .bf16) (harg11 : arg11.IsWhole) (arg12 : Memref sig .tc .vmem S1 .f32) (harg12 : arg12.IsWhole) (arg13 : Memref sig .tc .vmem S1x512x1024 .f32) (harg13 : arg13.IsWhole) (arg14 : Memref sig .tc .vmem S1024x64 .bf16) (harg14 : arg14.IsWhole) (arg15 : Memref sig .tc .vmem S64x1024 .bf16) (harg15 : arg15.IsWhole) (hc0 : cond0_0 i) (x0 : Vec F S1x512x1024 .f32) (x1 : Vec F S1x64x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1 .bf16) (x9 : Vec F S1024x1 .bf16) (x10 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay3 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A; dsimp only; sl_unfold_words
  rw [View.canon_unit_zero hz2]
  simp only [View.readAt_eq_ld, harg3.read_unread, harg6.read_unread, harg7.read_unread,
    View.ld_unit_zero (S := S1x64x1024) hz3, View.ld_unit_zero (S := S1024x1024) hz2, View.ld_unit_zero (S := S1024) hz1]

/-- A batch's first point leaves the value projection in the value scratch. -/
theorem sout0_A_1_eq (c : Dev nD) (i : grid0.Coords) (arg2 : Memref sig .tc .vmem S1x512x1024 .f32) (harg2 : arg2.IsWhole) (arg3 : Memref sig .tc .vmem S1x64x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1 .bf16) (harg10 : arg10.IsWhole) (arg11 : Memref sig .tc .vmem S1024x1 .bf16) (harg11 : arg11.IsWhole) (arg12 : Memref sig .tc .vmem S1 .f32) (harg12 : arg12.IsWhole) (arg13 : Memref sig .tc .vmem S1x512x1024 .f32) (harg13 : arg13.IsWhole) (arg14 : Memref sig .tc .vmem S1024x64 .bf16) (harg14 : arg14.IsWhole) (arg15 : Memref sig .tc .vmem S64x1024 .bf16) (harg15 : arg15.IsWhole) (hc0 : cond0_0 i) (x0 : Vec F S1x512x1024 .f32) (x1 : Vec F S1x64x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1 .bf16) (x9 : Vec F S1024x1 .bf16) (x10 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k0_pay4 x1 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A; dsimp only; sl_unfold_words
  rw [View.canon_unit_zero hz2]
  simp only [View.readAt_eq_ld, harg3.read_unread, harg8.read_unread, harg9.read_unread,
    View.ld_unit_zero (S := S1x64x1024) hz3, View.ld_unit_zero (S := S1024x1024) hz2, View.ld_unit_zero (S := S1024) hz1]

/-- At a batch's first point the stored block is computed from the scratch contents that point itself has just stored. -/
theorem out0_A_11_eq (c : Dev nD) (i : grid0.Coords) (arg2 : Memref sig .tc .vmem S1x512x1024 .f32) (harg2 : arg2.IsWhole) (arg3 : Memref sig .tc .vmem S1x64x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1 .bf16) (harg10 : arg10.IsWhole) (arg11 : Memref sig .tc .vmem S1024x1 .bf16) (harg11 : arg11.IsWhole) (arg12 : Memref sig .tc .vmem S1 .f32) (harg12 : arg12.IsWhole) (arg13 : Memref sig .tc .vmem S1x512x1024 .f32) (harg13 : arg13.IsWhole) (arg14 : Memref sig .tc .vmem S1024x64 .bf16) (harg14 : arg14.IsWhole) (arg15 : Memref sig .tc .vmem S64x1024 .bf16) (harg15 : arg15.IsWhole) (hc0 : cond0_0 i) (x0 : Vec F S1x512x1024 .f32) (x1 : Vec F S1x64x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1 .bf16) (x9 : Vec F S1024x1 .bf16) (x10 : Vec F S1 .f32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = blockOf x0 x1 x2 x3 x4 x5 x6 x7 x8 x9 x10 (k0_pay3 x1 x4 x5) (k0_pay4 x1 x6 x7) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10)]
  unfold kernelRun0_A; dsimp only; sl_unfold_words
  rw [View.canon_unit_zero hz3]
  unfold blockOf
  simp only [View.readAt_eq_ld, harg2.read_unread, harg3.read_unread, harg4.read_unread, harg5.read_unread, harg6.read_unread,
    harg7.read_unread, harg8.read_unread, harg9.read_unread, harg10.read_unread, harg11.read_unread, harg12.read_unread,
    View.readCov_unit_zero (S := S1024x64) _ hz2, View.readCov_unit_zero (S := S64x1024) _ hz2,
    View.ld_unit_zero (S := S1x512x1024) hz3, View.ld_unit_zero (S := S1x64x1024) hz3, View.ld_unit_zero (S := S1024x1024) hz2,
    View.ld_unit_zero (S := S1024) hz1, View.ld_unit_zero (S := S1024x1) hz2, View.ld_unit_zero (S := S1) hz1]

/-- At the other points the stored block is computed from what the scratch buffers hold. -/
theorem out0_B_11_eq (c : Dev nD) (i : grid0.Coords) (arg2 : Memref sig .tc .vmem S1x512x1024 .f32) (harg2 : arg2.IsWhole) (arg3 : Memref sig .tc .vmem S1x64x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1024x1 .bf16) (harg10 : arg10.IsWhole) (arg11 : Memref sig .tc .vmem S1024x1 .bf16) (harg11 : arg11.IsWhole) (arg12 : Memref sig .tc .vmem S1 .f32) (harg12 : arg12.IsWhole) (arg13 : Memref sig .tc .vmem S1x512x1024 .f32) (harg13 : arg13.IsWhole) (arg14 : Memref sig .tc .vmem S1024x64 .bf16) (harg14 : arg14.IsWhole) (arg15 : Memref sig .tc .vmem S64x1024 .bf16) (harg15 : arg15.IsWhole) (hc0 : ¬cond0_0 i) (x0 : Vec F S1x512x1024 .f32) (x1 : Vec F S1x64x1024 .f32) (x2 : Vec F S1024x1024 .bf16) (x3 : Vec F S1024 .f32) (x4 : Vec F S1024x1024 .bf16) (x5 : Vec F S1024 .f32) (x6 : Vec F S1024x1024 .bf16) (x7 : Vec F S1024 .f32) (x8 : Vec F S1024x1 .bf16) (x9 : Vec F S1024x1 .bf16) (x10 : Vec F S1 .f32)
    (xs0 : Vec F S1024x64 .bf16) (xs1 : Vec F S64x1024 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = blockOf x0 x1 x2 x3 x4 x5 x6 x7 x8 x9 x10 xs0 xs1 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1)]
  unfold kernelRun0_B; dsimp only; sl_unfold_words
  rw [View.canon_unit_zero hz3]
  unfold blockOf
  simp only [View.readAt_eq_ld, harg2.read_unread, harg4.read_unread, harg5.read_unread, harg10.read_unread, harg11.read_unread,
    harg12.read_unread, harg14.read_unread, harg15.read_unread,
    View.ld_unit_zero (S := S1x512x1024) hz3, View.ld_unit_zero (S := S1024x1024) hz2, View.ld_unit_zero (S := S1024x64) hz2,
    View.ld_unit_zero (S := S64x1024) hz2, View.ld_unit_zero (S := S1024) hz1, View.ld_unit_zero (S := S1024x1) hz2,
    View.ld_unit_zero (S := S1) hz1]

end Cert.Attn

end
-- ==== Proof.Blocks.lean ====
/-
  The input blocks of a grid point, read at an index as entries of the argument arrays.

  Grid point t is batch b = t / 8 and row tile t % 8: the p block is rows (t % 8)·512 … +511 of batch b, the x block
  is batch b whole, and every weight window is its whole array at every point. Three weight arrays and the two gate
  columns reach the kernel transposed (and cut out of the gate row) by host operations that run before the region;
  at the ideal values the change of float format between them is the identity.
-/
import proofs.«125770_j36558761624275_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.Attn

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ)

/-- The batch of grid point t. -/
def bOf (t : Fin cfg0.N) : Fin 8 := ⟨t.val / 8, by have h := t.isLt; have hN : cfg0.N = 64 := N_0; omega⟩
/-- The row of p that row r of grid point t's block is. -/
def sOf (t : Fin cfg0.N) (r : Fin 512) : Fin 4096 := ⟨t.val % 8 * 512 + r.val, by have := r.isLt; omega⟩

/-- The printed index maps over the 64 grid points: p and the output move with (t / 8, t % 8), x with t / 8, the rest stay. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_11.index t (0 : Fin 3) = t.val / 8 ∧ win0_11.index t (1 : Fin 3) = t.val % 8 ∧ win0_11.index t (2 : Fin 3) = 0)
    ∧ (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ win0_3.index t (0 : Fin 1) = 0 ∧ win0_5.index t (0 : Fin 1) = 0 ∧ win0_7.index t (0 : Fin 1) = 0
    ∧ win0_10.index t (0 : Fin 1) = 0 :=
  (by decide +kernel : ∀ t : Fin grid0.N, _)

/-- The input blocks of a grid point, named at their literal types. -/
abbrev pblk (c : Dev nD) (t : Fin cfg0.N) : Vec Ideal S1x512x1024 .f32 := iblk m c 0 t
abbrev xblk (c : Dev nD) (t : Fin cfg0.N) : Vec Ideal S1x64x1024 .f32 := iblk m c 1 t
abbrev wqblk (c : Dev nD) (t : Fin cfg0.N) : Vec Ideal S1024x1024 .bf16 := iblk m c 2 t
abbrev bqblk (c : Dev nD) (t : Fin cfg0.N) : Vec Ideal S1024 .f32 := iblk m c 3 t
abbrev wkblk (c : Dev nD) (t : Fin cfg0.N) : Vec Ideal S1024x1024 .bf16 := iblk m c 4 t
abbrev bkblk (c : Dev nD) (t : Fin cfg0.N) : Vec Ideal S1024 .f32 := iblk m c 5 t
abbrev wvblk (c : Dev nD) (t : Fin cfg0.N) : Vec Ideal S1024x1024 .bf16 := iblk m c 6 t
abbrev bvblk (c : Dev nD) (t : Fin cfg0.N) : Vec Ideal S1024 .f32 := iblk m c 7 t
abbrev g1blk (c : Dev nD) (t : Fin cfg0.N) : Vec Ideal S1024x1 .bf16 := iblk m c 8 t
abbrev g2blk (c : Dev nD) (t : Fin cfg0.N) : Vec Ideal S1024x1 .bf16 := iblk m c 9 t
abbrev bgblk (c : Dev nD) (t : Fin cfg0.N) : Vec Ideal S1 .f32 := iblk m c 10 t

/-- The argument arrays, named at their literal types. -/
abbrev argP (c : Dev nD) : FVec Ideal S8x4096x1024 .f32 := m ((c : Thread nD τ).loc main_arg0)
abbrev argX (c : Dev nD) : FVec Ideal S8x64x1024 .f32 := m ((c : Thread nD τ).loc main_arg1)
abbrev argWq (c : Dev nD) : FVec Ideal S1024x1024 .f32 := m ((c : Thread nD τ).loc main_arg2)
abbrev argBq (c : Dev nD) : FVec Ideal S1024 .f32 := m ((c : Thread nD τ).loc main_arg3)
abbrev argWk (c : Dev nD) : FVec Ideal S1024x1024 .f32 := m ((c : Thread nD τ).loc main_arg4)
abbrev argBk (c : Dev nD) : FVec Ideal S1024 .f32 := m ((c : Thread nD τ).loc main_arg5)
abbrev argWv (c : Dev nD) : FVec Ideal S1024x1024 .f32 := m ((c : Thread nD τ).loc main_arg6)
abbrev argBv (c : Dev nD) : FVec Ideal S1024 .f32 := m ((c : Thread nD τ).loc main_arg7)
abbrev argWg (c : Dev nD) : FVec Ideal S1x2048 .f32 := m ((c : Thread nD τ).loc main_arg8)
abbrev argBg (c : Dev nD) : FVec Ideal S1 .f32 := m ((c : Thread nD τ).loc main_arg9)

/-- The host operations before the region, read back: each transposed weight array and each gate column as the operations' term
    of its argument array. -/
def V_main_v1_term (c : Dev nD) : FVec Ideal S1024x1024 .bf16 :=
  truncf .bf16 (transpose S1024x1024 [1, 0] (argWq m c) transposes_S1024x1024_S1024x1024_1_0) bitsLt_bf16_f32
def V_main_v3_term (c : Dev nD) : FVec Ideal S1024x1024 .bf16 :=
  truncf .bf16 (transpose S1024x1024 [1, 0] (argWk m c) transposes_S1024x1024_S1024x1024_1_0) bitsLt_bf16_f32
def V_main_v5_term (c : Dev nD) : FVec Ideal S1024x1024 .bf16 :=
  truncf .bf16 (transpose S1024x1024 [1, 0] (argWv m c) transposes_S1024x1024_S1024x1024_1_0) bitsLt_bf16_f32
def V_main_v8_term (c : Dev nD) : FVec Ideal S1024x1 .bf16 :=
  truncf .bf16 (transpose S1024x1 [1, 0] (extractStridedSlice S1x1024 ![0, 0] (argWg m c) slices_S1x2048_S1x1024_0_0) transposes_S1x1024_S1024x1_1_0) bitsLt_bf16_f32
def V_main_v11_term (c : Dev nD) : FVec Ideal S1024x1 .bf16 :=
  truncf .bf16 (transpose S1024x1 [1, 0] (extractStridedSlice S1x1024 ![0, 1024] (argWg m c) slices_S1x2048_S1x1024_0_1024) transposes_S1x1024_S1024x1_1_0) bitsLt_bf16_f32

theorem V_main_v1_eq (c : Dev nD) : (V m c main_v1 : FVec Ideal S1024x1024 .bf16) = V_main_v1_term m c := by
  unfold V_main_v1_term; dsimp only [Gen.V, Gen.hostOps0]; after_results
theorem V_main_v3_eq (c : Dev nD) : (V m c main_v3 : FVec Ideal S1024x1024 .bf16) = V_main_v3_term m c := by
  unfold V_main_v3_term; dsimp only [Gen.V, Gen.hostOps0]; after_results
theorem V_main_v5_eq (c : Dev nD) : (V m c main_v5 : FVec Ideal S1024x1024 .bf16) = V_main_v5_term m c := by
  unfold V_main_v5_term; dsimp only [Gen.V, Gen.hostOps0]; after_results
theorem V_main_v8_eq (c : Dev nD) : (V m c main_v8 : FVec Ideal S1024x1 .bf16) = V_main_v8_term m c := by
  unfold V_main_v8_term; dsimp only [Gen.V, Gen.hostOps0]; after_results
theorem V_main_v11_eq (c : Dev nD) : (V m c main_v11 : FVec Ideal S1024x1 .bf16) = V_main_v11_term m c := by
  unfold V_main_v11_term; dsimp only [Gen.V, Gen.hostOps0]; after_results

/-- Row r of the p block is row (t % 8)·512 + r of batch t / 8. -/
theorem p_apply (c : Dev nD) (t : Fin cfg0.N) (r : Fin 512) (k : Fin 1024) :
    pblk m c t (ix3 0 r k) = argP m c (ix3 (bOf t) (sOf t r) k) := by
  obtain ⟨⟨e0, e1, e2⟩, -⟩ := idx_facts t
  show iblk m c 0 t (ix3 0 r k) = _
  unfold iblk
  rw [View.read_apply]
  show V m c main_arg0 _ = _
  rw [V_main_arg0]
  refine congrArg (argP m c) (funext fun a => Fin.ext ?_)
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 1024 + 1 * k.val = k.val; omega

/-- Row l of the x block is row l of batch t / 8. -/
theorem x_apply (c : Dev nD) (t : Fin cfg0.N) (l : Fin 64) (k : Fin 1024) :
    xblk m c t (ix3 0 l k) = argX m c (ix3 (bOf t) l k) := by
  obtain ⟨-, ⟨e0, e1, e2⟩, -⟩ := idx_facts t
  show iblk m c 1 t (ix3 0 l k) = _
  unfold iblk
  rw [View.read_apply]
  show V m c main_arg1 _ = _
  rw [V_main_arg1]
  refine congrArg (argX m c) (funext fun a => Fin.ext ?_)
  match a with
  | ⟨0, _⟩ => show win0_1.index t (0 : Fin 3) * 1 + 1 * 0 = t.val / 8; omega
  | ⟨1, _⟩ => show win0_1.index t (1 : Fin 3) * 64 + 1 * l.val = l.val; omega
  | ⟨2, _⟩ => show win0_1.index t (2 : Fin 3) * 1024 + 1 * k.val = k.val; omega

/-- The query weights reach the kernel transposed: entry (k, h) of the block is entry (h, k) of Wq. -/
theorem wq_apply (c : Dev nD) (t : Fin cfg0.N) (k h : Fin 1024) :
    wqblk m c t (ix2 k h) = argWq m c (ix2 h k) := by
  obtain ⟨-, -, -, ⟨q0, q1⟩, ⟨k0, k1⟩, ⟨v0, v1⟩, -⟩ := idx_facts t
  show iblk m c 2 t (ix2 k h) = _
  unfold iblk
  rw [View.read_apply]
  show V m c main_v1 _ = _
  rw [V_main_v1_eq m c]
  unfold V_main_v1_term
  rw [truncf_apply]
  refine transpose_apply [1, 0] _ transposes_S1024x1024_S1024x1024_1_0 _ (ix2 h k) ?_
  intro b
  match b with
  | ⟨0, _⟩ => show k.val = win0_2.index t (0 : Fin 2) * 1024 + 1 * k.val; omega
  | ⟨1, _⟩ => show h.val = win0_2.index t (1 : Fin 2) * 1024 + 1 * h.val; omega

/-- The key weights reach the kernel transposed. -/
theorem wk_apply (c : Dev nD) (t : Fin cfg0.N) (k h : Fin 1024) :
    wkblk m c t (ix2 k h) = argWk m c (ix2 h k) := by
  obtain ⟨-, -, -, ⟨q0, q1⟩, ⟨k0, k1⟩, ⟨v0, v1⟩, -⟩ := idx_facts t
  show iblk m c 4 t (ix2 k h) = _
  unfold iblk
  rw [View.read_apply]
  show V m c main_v3 _ = _
  rw [V_main_v3_eq m c]
  unfold V_main_v3_term
  rw [truncf_apply]
  refine transpose_apply [1, 0] _ transposes_S1024x1024_S1024x1024_1_0 _ (ix2 h k) ?_
  intro b
  match b with
  | ⟨0, _⟩ => show k.val = win0_4.index t (0 : Fin 2) * 1024 + 1 * k.val; omega
  | ⟨1, _⟩ => show h.val = win0_4.index t (1 : Fin 2) * 1024 + 1 * h.val; omega

/-- The value weights reach the kernel transposed. -/
theorem wv_apply (c : Dev nD) (t : Fin cfg0.N) (k h : Fin 1024) :
    wvblk m c t (ix2 k h) = argWv m c (ix2 h k) := by
  obtain ⟨-, -, -, ⟨q0, q1⟩, ⟨k0, k1⟩, ⟨v0, v1⟩, -⟩ := idx_facts t
  show iblk m c 6 t (ix2 k h) = _
  unfold iblk
  rw [View.read_apply]
  show V m c main_v5 _ = _
  rw [V_main_v5_eq m c]
  unfold V_main_v5_term
  rw [truncf_apply]
  refine transpose_apply [1, 0] _ transposes_S1024x1024_S1024x1024_1_0 _ (ix2 h k) ?_
  intro b
  match b with
  | ⟨0, _⟩ => show k.val = win0_6.index t (0 : Fin 2) * 1024 + 1 * k.val; omega
  | ⟨1, _⟩ => show h.val = win0_6.index t (1 : Fin 2) * 1024 + 1 * h.val; omega

/-- The query bias block is the bias array. -/
theorem bq_apply (c : Dev nD) (t : Fin cfg0.N) (h : Fin 1024) :
    bqblk m c t (ix1 h) = argBq m c (ix1 h) := by
  obtain ⟨-, -, -, -, -, -, -, -, q3, k5, v7, g10⟩ := idx_facts t
  show iblk m c 3 t (ix1 h) = _
  unfold iblk
  rw [View.read_apply]
  show V m c main_arg3 _ = _
  rw [V_main_arg3]
  refine congrArg (argBq m c) (funext fun a => Fin.ext ?_)
  match a with
  | ⟨0, _⟩ => show win0_3.index t (0 : Fin 1) * 1024 + 1 * h.val = h.val; omega

/-- The key bias block is the bias array. -/
theorem bk_apply (c : Dev nD) (t : Fin cfg0.N) (h : Fin 1024) :
    bkblk m c t (ix1 h) = argBk m c (ix1 h) := by
  obtain ⟨-, -, -, -, -, -, -, -, q3, k5, v7, g10⟩ := idx_facts t
  show iblk m c 5 t (ix1 h) = _
  unfold iblk
  rw [View.read_apply]
  show V m c main_arg5 _ = _
  rw [V_main_arg5]
  refine congrArg (argBk m c) (funext fun a => Fin.ext ?_)
  match a with
  | ⟨0, _⟩ => show win0_5.index t (0 : Fin 1) * 1024 + 1 * h.val = h.val; omega

/-- The value bias block is the bias array. -/
theorem bv_apply (c : Dev nD) (t : Fin cfg0.N) (h : Fin 1024) :
    bvblk m c t (ix1 h) = argBv m c (ix1 h) := by
  obtain ⟨-, -, -, -, -, -, -, -, q3, k5, v7, g10⟩ := idx_facts t
  show iblk m c 7 t (ix1 h) = _
  unfold iblk
  rw [View.read_apply]
  show V m c main_arg7 _ = _
  rw [V_main_arg7]
  refine congrArg (argBv m c) (funext fun a => Fin.ext ?_)
  match a with
  | ⟨0, _⟩ => show win0_7.index t (0 : Fin 1) * 1024 + 1 * h.val = h.val; omega

/-- The first gate column is the first half of the gate row. -/
theorem g1_apply (c : Dev nD) (t : Fin cfg0.N) (k : Fin 1024) :
    g1blk m c t (ix2 k 0) = argWg m c (ix2 0 ⟨k.val, by have := k.isLt; omega⟩) := by
  obtain ⟨-, -, -, -, -, -, ⟨a0, a1⟩, ⟨b0, b1⟩, -⟩ := idx_facts t
  show iblk m c 8 t (ix2 k 0) = _
  unfold iblk
  rw [View.read_apply]
  show V m c main_v8 _ = _
  rw [V_main_v8_eq m c]
  unfold V_main_v8_term
  rw [truncf_apply]
  refine (transpose_apply [1, 0] _ transposes_S1x1024_S1024x1_1_0 _ (ix2 (0 : Fin 1) k : S1x1024.Idx) ?_).trans ?_
  · intro b
    match b with
    | ⟨0, _⟩ => show k.val = win0_8.index t (0 : Fin 2) * 1024 + 1 * k.val; omega
    | ⟨1, _⟩ => show (0 : Nat) = win0_8.index t (1 : Fin 2) * 1 + 1 * 0; omega
  · refine extractStridedSlice_apply (s := S1x2048) (t := S1x1024) _ _ _ _ _ ?_
    intro a
    match a with
    | ⟨0, _⟩ => rfl
    | ⟨1, _⟩ => show k.val = 0 + k.val; omega

/-- The second gate column is the second half of the gate row. -/
theorem g2_apply (c : Dev nD) (t : Fin cfg0.N) (k : Fin 1024) :
    g2blk m c t (ix2 k 0) = argWg m c (ix2 0 ⟨1024 + k.val, by have := k.isLt; omega⟩) := by
  obtain ⟨-, -, -, -, -, -, ⟨a0, a1⟩, ⟨b0, b1⟩, -⟩ := idx_facts t
  show iblk m c 9 t (ix2 k 0) = _
  unfold iblk
  rw [View.read_apply]
  show V m c main_v11 _ = _
  rw [V_main_v11_eq m c]
  unfold V_main_v11_term
  rw [truncf_apply]
  refine (transpose_apply [1, 0] _ transposes_S1x1024_S1024x1_1_0 _ (ix2 (0 : Fin 1) k : S1x1024.Idx) ?_).trans ?_
  · intro b
    match b with
    | ⟨0, _⟩ => show k.val = win0_9.index t (0 : Fin 2) * 1024 + 1 * k.val; omega
    | ⟨1, _⟩ => show (0 : Nat) = win0_9.index t (1 : Fin 2) * 1 + 1 * 0; omega
  · refine extractStridedSlice_apply (s := S1x2048) (t := S1x1024) _ _ _ _ _ ?_
    intro a
    match a with
    | ⟨0, _⟩ => rfl
    | ⟨1, _⟩ => show 1024 + k.val = 1024 + k.val; omega

/-- The gate bias block is the bias array. -/
theorem bg_apply (c : Dev nD) (t : Fin cfg0.N) : bgblk m c t (ix1 0) = argBg m c (ix1 0) := by
  obtain ⟨-, -, -, -, -, -, -, -, q3, k5, v7, g10⟩ := idx_facts t
  show iblk m c 10 t (ix1 0) = _
  unfold iblk
  rw [View.read_apply]
  show V m c main_arg9 _ = _
  rw [V_main_arg9]
  refine congrArg (argBg m c) (funext fun a => Fin.ext ?_)
  match a with
  | ⟨0, _⟩ => show win0_10.index t (0 : Fin 1) * 1 + 1 * 0 = 0; omega

end Cert.Attn

end
-- ==== Proof.Spec.lean ====
/-
  The function both programs compute, written index by index over the extended reals.

  With p : [8, 4096, 1024], x : [8, 64, 1024], three linear layers (Wq, bq), (Wk, bk), (Wv, bv) of width 1024,
  a gate row Wg : [1, 2048] and a gate bias bg : [1]:

    q[b,s,·] = p[b,s,·]·Wqᵀ + bq          k[b,l,·] = x[b,l,·]·Wkᵀ + bk          v[b,l,·] = x[b,l,·]·Wvᵀ + bv
    z[b,s,l] = Σ_h q[b,s,h]·k[b,l,h]
    a[b,s,l] = softmax_l z[b,s,·] · (1/32)                     (the scale comes AFTER the softmax)
    o[b,s,h] = Σ_l a[b,s,l]·v[b,l,h] + p[b,s,h]
    γ[b,s]   = Σ_{k<1024} o[b,s,k]·Wg[0,k] + Σ_{k<1024} p[b,s,k]·Wg[0,1024+k] + bg[0]
    r[b,s,h] = σ(γ)·o[b,s,h] + (1 − σ(γ))·p[b,s,h]

  The softmax subtracts the row maximum (taken from −∞, as both programs do), exponentiates, and divides by the row sum.
  Also here: the two facts about constants that join the programs — the word 0x3D000000 is 1/32, and the square root of
  the word 0x44800000 (1024) is 32, so dividing by it is multiplying by 1/32 on every extended real.
-/
import Idealize.ShloMosaic.PureOps.Ideal
import Idealize.ShloMosaic.Lib.ValueIdx

noncomputable section

namespace Cert.Attn

open Idealize.ShloMosaic Idealize.ShloMosaic.ValueIdx
open scoped BigOperators

/-- Arrays of extended reals over the literal shapes of the programs. -/
abbrev Arr3 (a b c : Nat) : Type := (⟨3, ![a, b, c]⟩ : Shape).Idx → EReal
abbrev Arr2 (a b : Nat) : Type := (⟨2, ![a, b]⟩ : Shape).Idx → EReal
abbrev Arr1 (a : Nat) : Type := (⟨1, ![a]⟩ : Shape).Idx → EReal

/-- The pattern of −∞, from which both programs start the row maximum. -/
abbrev negInf : EReal := Ideal.ofBits .f32 0xFF800000#32

/-- One output coordinate of a linear layer `y = x·Wᵀ + b` of width 1024. -/
def lin (x : Fin 1024 → EReal) (W : Arr2 1024 1024) (bias : Arr1 1024) (h : Fin 1024) : EReal :=
  (∑ k : Fin 1024, x k * W (ix2 h k)) + bias (ix1 h)

/-- The row maximum as both programs take it: the maximum of −∞ and the fold of `max` from −∞. -/
def rowMax (z : Fin 64 → EReal) : EReal := max negInf (Finset.univ.fold max negInf z)

/-- The softmax of a row of 64 scores, at one position. -/
def softmax (z : Fin 64 → EReal) (l : Fin 64) : EReal :=
  Ideal.div (Ideal.exp (z l - rowMax z)) (∑ l' : Fin 64, Ideal.exp (z l' - rowMax z))

section
variable (P : Arr3 8 4096 1024) (X : Arr3 8 64 1024)
  (Wq : Arr2 1024 1024) (bq : Arr1 1024) (Wk : Arr2 1024 1024) (bk : Arr1 1024) (Wv : Arr2 1024 1024) (bv : Arr1 1024)
  (Wg : Arr2 1 2048) (bg : Arr1 1)

/-- The query projection. -/
def qv (b : Fin 8) (s : Fin 4096) (h : Fin 1024) : EReal := lin (fun k => P (ix3 b s k)) Wq bq h
/-- The key and value projections (one shape: `W`, `bias` are the key's or the value's). -/
def kvv (W : Arr2 1024 1024) (bias : Arr1 1024) (b : Fin 8) (l : Fin 64) (h : Fin 1024) : EReal :=
  lin (fun k => X (ix3 b l k)) W bias h
/-- The scores of query row `(b, s)` against the 64 keys of batch `b`. -/
def score (b : Fin 8) (s : Fin 4096) (l : Fin 64) : EReal := ∑ h : Fin 1024, qv P Wq bq b s h * kvv X Wk bk b l h
/-- The attention weights: the softmax of the scores, then the scale 1/32. -/
def attn (b : Fin 8) (s : Fin 4096) (l : Fin 64) : EReal :=
  softmax (score P X Wq bq Wk bk b s) l * ((1 / 32 : ℝ) : EReal)
/-- The attended values plus the residual. -/
def outv (b : Fin 8) (s : Fin 4096) (h : Fin 1024) : EReal :=
  (∑ l : Fin 64, attn P X Wq bq Wk bk b s l * kvv X Wv bv b l h) + P (ix3 b s h)
/-- The gate's logit: the first half of the gate row against `o`, the second half against `p`, plus the bias. -/
def gateLogit (b : Fin 8) (s : Fin 4096) : EReal :=
  ((∑ k : Fin 1024, outv P X Wq bq Wk bk Wv bv b s k * Wg (ix2 0 ⟨k.val, by omega⟩))
    + ∑ k : Fin 1024, P (ix3 b s k) * Wg (ix2 0 ⟨1024 + k.val, by omega⟩)) + bg (ix1 0)
/-- The result: the gated mix of `o` and `p`. -/
def result (b : Fin 8) (s : Fin 4096) (h : Fin 1024) : EReal :=
  Ideal.logistic (gateLogit P X Wq bq Wk bk Wv bv Wg bg b s) * outv P X Wq bq Wk bk Wv bv b s h
    + (Ideal.ofBits .f32 0x3F800000#32 - Ideal.logistic (gateLogit P X Wq bq Wk bk Wv bv Wg bg b s)) * P (ix3 b s h)

/-- The result as one array. -/
def resultArr : Arr3 8 4096 1024 := fun i => result P X Wq bq Wk bk Wv bv Wg bg (i 0) (i 1) (i 2)

end

/-! ## The constants -/

/-- The kernel's scale word is 1/32. -/
theorem ofBits_scale : Ideal.ofBits .f32 0x3D000000#32 = ((1 / 32 : ℝ) : EReal) := by
  simp [Ideal.ofBits, Ideal.ieee, -EReal.coe_mul]; norm_num

/-- The reference's word under the square root is 1024. -/
theorem ofBits_1024 : Ideal.ofBits .f32 0x44800000#32 = ((1024 : ℝ) : EReal) := by
  simp [Ideal.ofBits, Ideal.ieee, -EReal.coe_mul]; norm_num

/-- 1024 is the square of 32. -/
theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num]
  exact Real.sqrt_sq (by norm_num)

/-- Dividing by √1024 is multiplying by 1/32, on every extended real. -/
theorem div_sqrt_1024 (x : EReal) :
    Ideal.div x (Ideal.sqrt (Ideal.ofBits .f32 0x44800000#32)) = x * ((1 / 32 : ℝ) : EReal) := by
  rw [sqrt_1024]; exact Ideal.div_coe (by norm_num) x

/-- A sum over 2048 positions is the sum over the first 1024 plus the sum over the last 1024. -/
theorem sum_2048 {M : Type*} [AddCommMonoid M] (f : Fin 2048 → M) :
    ∑ k : Fin 2048, f k = (∑ k : Fin 1024, f ⟨k.val, by omega⟩) + ∑ k : Fin 1024, f ⟨1024 + k.val, by omega⟩ :=
  Fin.sum_univ_add (a := 1024) (b := 1024) f

end Cert.Attn

end
-- ==== Proof.PayKV.lean ====
/-
  The kernel's three small payloads read at an index, at the ideal values: the transposed key projection and the value
  projection a batch's first grid point stores into the two carried scratch buffers, and the final gated mix.
-/
import proofs.«125770_j36558761624275_1_alg».proof.Proof.Gen.KernelIdeal.Skeleton
import proofs.«125770_j36558761624275_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.Attn

open Idealize.ShloMosaic Idealize.ShloMosaic.ValueIdx
open scoped BigOperators

open Cert.KernelIdeal Cert.KernelIdeal.Gen

/-! ## The contraction of a [64, 1024] block with a [1024, 1024] matrix, read at an index -/

/-- The [64, 1024] · [1024, 1024] contraction: the left operand's row coordinate is the result's row coordinate. -/
theorem lhs_kv_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide), dif_pos (show (0 : Fin S64x1024.rank) ∈ dot_S64x1024_S1024x1024_S64x1024_1_0_0_1_n_n.lhsNonContracting by decide)]
  rfl
/-- The [64, 1024] · [1024, 1024] contraction: the left operand's column coordinate is the summation position. -/
theorem lhs_kv_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
/-- The [64, 1024] · [1024, 1024] contraction: the right operand's row coordinate is the summation position. -/
theorem rhs_kv_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
/-- The [64, 1024] · [1024, 1024] contraction: the right operand's column coordinate is the result's column coordinate. -/
theorem rhs_kv_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide), dif_pos (show (1 : Fin S1024x1024.rank) ∈ dot_S64x1024_S1024x1024_S64x1024_1_0_0_1_n_n.rhsNonContracting by decide)]
  rfl

/-- The product of a [64, 1024] block and a [1024, 1024] matrix into the zero accumulator, entry (p, c): the sum over k < 1024 of a[p, k] · b[k, c]. -/
theorem matmul_kv_apply (a : FVec Ideal S64x1024 .bf16) (b : FVec Ideal S1024x1024 .bf16) (p : Fin 64) (c : Fin 1024) :
    matmul dot_S64x1024_S1024x1024_S64x1024_1_0_0_1_n_n none a b (constant S64x1024 .f32 0x00000000#32) (ix2 p c)
      = ∑ k : Fin 1024, a (ix2 p k) * b (ix2 k c) := by
  refine (Ideal.matmul_constant_zero_apply dot_S64x1024_S1024x1024_S64x1024_1_0_0_1_n_n none a b (ix2 p c)).trans ?_
  rw [← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 p c) ((contrEquiv1 dot_S64x1024_S1024x1024_S64x1024_1_0_0_1_n_n 1024 rfl rfl).symm k) = ix2 p k := funext fun ax => Fin.ext (by
    match ax with
    | ⟨0, _⟩ => exact lhs_kv_0 _ _
    | ⟨1, _⟩ => exact (lhs_kv_1 _ _).trans hk)
  have er : dot_S64x1024_S1024x1024_S64x1024_1_0_0_1_n_n.rhsIdx (ix2 p c) ((contrEquiv1 dot_S64x1024_S1024x1024_S64x1024_1_0_0_1_n_n 1024 rfl rfl).symm k) = ix2 k c := funext fun ax => Fin.ext (by
    match ax with
    | ⟨0, _⟩ => exact (rhs_kv_0 _ _).trans hk
    | ⟨1, _⟩ => exact rhs_kv_1 _ _)
  rw [el, er]

/-! ## The contraction of a [512, 1024] block with a [1024, 1] column, read at an index -/

/-- The [512, 1024] · [1024, 1] contraction: the left operand's row coordinate is the result's row coordinate. -/
theorem lhs_gate_0 (i : S512x1.Idx) (q : dot_S512x1024_S1024x1_S512x1_1_0_0_1_n_n.contr.Idx) :
    (dot_S512x1024_S1024x1_S512x1_1_0_0_1_n_n.lhsIdx i q 0).val = (i 0).val := by
  unfold DotDims.lhsIdx
  rw [dif_neg (show ¬(0 : Fin S512x1024.rank) ∈ dot_S512x1024_S1024x1_S512x1_1_0_0_1_n_n.lhsBatch by decide), dif_pos (show (0 : Fin S512x1024.rank) ∈ dot_S512x1024_S1024x1_S512x1_1_0_0_1_n_n.lhsNonContracting by decide)]
  rfl
/-- The [512, 1024] · [1024, 1] contraction: the left operand's column coordinate is the summation position. -/
theorem lhs_gate_1 (i : S512x1.Idx) (q : dot_S512x1024_S1024x1_S512x1_1_0_0_1_n_n.contr.Idx) :
    (dot_S512x1024_S1024x1_S512x1_1_0_0_1_n_n.lhsIdx i q 1).val = (q ⟨0, by decide⟩).val :=
  dot_S512x1024_S1024x1_S512x1_1_0_0_1_n_n.lhsIdx_val_of_single rfl i q
/-- The [512, 1024] · [1024, 1] contraction: the right operand's row coordinate is the summation position. -/
theorem rhs_gate_0 (i : S512x1.Idx) (q : dot_S512x1024_S1024x1_S512x1_1_0_0_1_n_n.contr.Idx) :
    (dot_S512x1024_S1024x1_S512x1_1_0_0_1_n_n.rhsIdx i q 0).val = (q ⟨0, by decide⟩).val :=
  dot_S512x1024_S1024x1_S512x1_1_0_0_1_n_n.rhsIdx_val_of_single rfl i q
/-- The [512, 1024] · [1024, 1] contraction: the right operand's column coordinate is the result's column coordinate. -/
theorem rhs_gate_1 (i : S512x1.Idx) (q : dot_S512x1024_S1024x1_S512x1_1_0_0_1_n_n.contr.Idx) :
    (dot_S512x1024_S1024x1_S512x1_1_0_0_1_n_n.rhsIdx i q 1).val = (i 1).val := by
  unfold DotDims.rhsIdx
  rw [dif_neg (show ¬(1 : Fin S1024x1.rank) ∈ dot_S512x1024_S1024x1_S512x1_1_0_0_1_n_n.rhsBatch by decide), dif_pos (show (1 : Fin S1024x1.rank) ∈ dot_S512x1024_S1024x1_S512x1_1_0_0_1_n_n.rhsNonContracting by decide)]
  rfl

/-- The product of a [512, 1024] block and a [1024, 1] column into the zero accumulator, entry (p, c): the sum over k < 1024 of a[p, k] · b[k, c]. -/
theorem matmul_gate_apply (a : FVec Ideal S512x1024 .bf16) (b : FVec Ideal S1024x1 .bf16) (p : Fin 512) (c : Fin 1) :
    matmul dot_S512x1024_S1024x1_S512x1_1_0_0_1_n_n none a b (constant S512x1 .f32 0x00000000#32) (ix2 p c)
      = ∑ k : Fin 1024, a (ix2 p k) * b (ix2 k c) := by
  refine (Ideal.matmul_constant_zero_apply dot_S512x1024_S1024x1_S512x1_1_0_0_1_n_n none a b (ix2 p c)).trans ?_
  rw [← Equiv.sum_comp (contrEquiv1 dot_S512x1024_S1024x1_S512x1_1_0_0_1_n_n 1024 rfl rfl).symm]
  refine Finset.sum_congr rfl fun k _ => ?_
  have hk := contrEquiv1_symm_val dot_S512x1024_S1024x1_S512x1_1_0_0_1_n_n 1024 rfl rfl k
  have el : dot_S512x1024_S1024x1_S512x1_1_0_0_1_n_n.lhsIdx (ix2 p c) ((contrEquiv1 dot_S512x1024_S1024x1_S512x1_1_0_0_1_n_n 1024 rfl rfl).symm k) = ix2 p k := funext fun ax => Fin.ext (by
    match ax with
    | ⟨0, _⟩ => exact lhs_gate_0 _ _
    | ⟨1, _⟩ => exact (lhs_gate_1 _ _).trans hk)
  have er : dot_S512x1024_S1024x1_S512x1_1_0_0_1_n_n.rhsIdx (ix2 p c) ((contrEquiv1 dot_S512x1024_S1024x1_S512x1_1_0_0_1_n_n 1024 rfl rfl).symm k) = ix2 k c := funext fun ax => Fin.ext (by
    match ax with
    | ⟨0, _⟩ => exact (rhs_gate_0 _ _).trans hk
    | ⟨1, _⟩ => exact rhs_gate_1 _ _)
  rw [el, er]

/-! ## The key and value projections -/

/-- The x block with its unit axis dropped (the change of format is the identity on extended reals): entry (l, k) is x[0, l, k]. -/
theorem pay2_apply (x1 : Vec Ideal S1x64x1024 .f32) (l : Fin 64) (k : Fin 1024) :
    k0_pay2 (F := Ideal) x1 (ix2 l k) = x1 (ix3 0 l k) := by
  unfold k0_pay2
  exact shapeCast_1ab_ab_apply x1 _ l k

/-- One projection of the x block before it is stored, entry (l, h): the row x[0, l, ·] against column h of the weight,
    plus the bias row (one row of 1024 entries repeated over the 64 rows) at h. -/
theorem proj_apply (x1 : Vec Ideal S1x64x1024 .f32) (w : Vec Ideal S1024x1024 .bf16) (bias : Vec Ideal S1024 .f32)
    (hw : S1024x1024.ShapeCasts S1024x1024) (hb : S1024.ShapeCasts S1x1024) (hbr : S1x1024.Broadcasts S64x1024)
    (l : Fin 64) (h : Fin 1024) :
    addf (matmul dot_S64x1024_S1024x1024_S64x1024_1_0_0_1_n_n none (k0_pay2 (F := Ideal) x1) (shapeCast S1024x1024 w hw : FVec Ideal S1024x1024 .bf16)
          (constant S64x1024 .f32 0x00000000#32))
        (broadcastTo S64x1024 (shapeCast S1x1024 bias hb : FVec Ideal S1x1024 .f32) hbr) (ix2 l h)
      = (∑ k : Fin 1024, x1 (ix3 0 l k) * w (ix2 k h)) + bias (ix1 h) := by
  have e1 : matmul dot_S64x1024_S1024x1024_S64x1024_1_0_0_1_n_n none (k0_pay2 (F := Ideal) x1) (shapeCast S1024x1024 w hw : FVec Ideal S1024x1024 .bf16)
      (constant S64x1024 .f32 0x00000000#32) (ix2 l h) = ∑ k : Fin 1024, x1 (ix3 0 l k) * w (ix2 k h) := by
    refine (matmul_kv_apply _ _ l h).trans ?_
    refine Finset.sum_congr rfl fun k _ => ?_
    rw [pay2_apply, shapeCast_self]
  have e2 : broadcastTo S64x1024 (shapeCast S1x1024 bias hb : FVec Ideal S1x1024 .f32) hbr (ix2 l h) = bias (ix1 h) :=
    (broadcastTo_1b_ab_apply _ hbr l h).trans (shapeCast_a_1a_apply bias hb 0 h)
  exact congrArg₂ (· + ·) e1 e2

/-- The key scratch, entry (h, l): the key projection of row l of the x block at output coordinate h (stored transposed). -/
theorem pay3_apply (x1 : Vec Ideal S1x64x1024 .f32) (w : Vec Ideal S1024x1024 .bf16) (bias : Vec Ideal S1024 .f32)
    (h : Fin 1024) (l : Fin 64) :
    k0_pay3 (F := Ideal) x1 w bias (ix2 h l) = (∑ k : Fin 1024, x1 (ix3 0 l k) * w (ix2 k h)) + bias (ix1 h) := by
  unfold k0_pay3
  refine Eq.trans ?_ (proj_apply x1 w bias shapeCasts_S1024x1024_S1024x1024 shapeCasts_S1024_S1x1024 broadcasts_S1x1024_S64x1024 l h)
  refine (congrFun (shapeCast_self _ _) (ix2 h l)).trans ?_
  refine (truncf_apply (ψ := .bf16) _ bitsLt_bf16_f32 (ix2 h l)).trans ?_
  exact transpose_ix2_apply _ _ h l

/-- The value scratch, entry (l, h): the value projection of row l of the x block at output coordinate h. -/
theorem pay4_apply (x1 : Vec Ideal S1x64x1024 .f32) (w : Vec Ideal S1024x1024 .bf16) (bias : Vec Ideal S1024 .f32)
    (l : Fin 64) (h : Fin 1024) :
    k0_pay4 (F := Ideal) x1 w bias (ix2 l h) = (∑ k : Fin 1024, x1 (ix3 0 l k) * w (ix2 k h)) + bias (ix1 h) := by
  unfold k0_pay4
  refine Eq.trans ?_ (proj_apply x1 w bias shapeCasts_S1024x1024_S1024x1024 shapeCasts_S1024_S1x1024 broadcasts_S1x1024_S64x1024 l h)
  exact congrFun (shapeCast_self _ _) (ix2 l h)

/-! ## The gated mix -/

/-- A column of `a` entries repeated over `b` columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The gate column, entry (r, 0): the logistic of (row r of the first block against the first gate column, plus row r of
    the second block against the second gate column, plus the one bias entry repeated over the 512 rows). -/
theorem gate_apply (v5 v33 : FVec Ideal S512x1024 .bf16) (v35 : FVec Ideal S1024x1 .bf16) (v37 : Vec Ideal S1024x1 .bf16)
    (v41 : Vec Ideal S1 .f32) (hc : S1024x1.ShapeCasts S1024x1) (h1 : S1.ShapeCasts S1x1) (hb : S1x1.Broadcasts S512x1)
    (r : Fin 512) :
    logistic (addf (addf (matmul dot_S512x1024_S1024x1_S512x1_1_0_0_1_n_n none v33 v35 (constant S512x1 .f32 0x00000000#32))
          (matmul dot_S512x1024_S1024x1_S512x1_1_0_0_1_n_n none v5 (shapeCast S1024x1 v37 hc : FVec Ideal S1024x1 .bf16) (constant S512x1 .f32 0x00000000#32)))
        (broadcastTo S512x1 (shapeCast S1x1 v41 h1 : FVec Ideal S1x1 .f32) hb)) (ix2 r (0 : Fin 1))
      = Ideal.logistic (((∑ k : Fin 1024, v33 (ix2 r k) * v35 (ix2 k 0)) + ∑ k : Fin 1024, v5 (ix2 r k) * v37 (ix2 k 0))
          + v41 (ix1 0)) := by
  have e1 := matmul_gate_apply v33 v35 r 0
  have e2 : matmul dot_S512x1024_S1024x1_S512x1_1_0_0_1_n_n none v5 (shapeCast S1024x1 v37 hc : FVec Ideal S1024x1 .bf16) (constant S512x1 .f32 0x00000000#32)
      (ix2 r (0 : Fin 1)) = ∑ k : Fin 1024, v5 (ix2 r k) * v37 (ix2 k 0) := by
    refine (matmul_gate_apply v5 _ r 0).trans ?_
    rw [shapeCast_self]
  have e3 : broadcastTo S512x1 (shapeCast S1x1 v41 h1 : FVec Ideal S1x1 .f32) hb (ix2 r (0 : Fin 1)) = v41 (ix1 0) :=
    (broadcastTo_1b_ab_apply _ hb r 0).trans (shapeCast_a_1a_apply v41 h1 0 0)
  exact congrArg Ideal.logistic (congrArg₂ (· + ·) (congrArg₂ (· + ·) e1 e2) e3)

/-- The mix of two blocks by a gate column g, entry (r, h): g[r] · o[r, h] + (1 − g[r]) · p[r, h], the column and its
    complement to the word of 1 each repeated over the 1024 columns. -/
theorem mix_apply (g : FVec Ideal S512x1 .f32) (v32 v4 : FVec Ideal S512x1024 .f32) (hb : S512x1.Broadcasts S512x1024)
    (r : Fin 512) (h : Fin 1024) :
    addf (mulf (broadcastTo S512x1024 g hb) v32)
        (mulf (broadcastTo S512x1024 (subf (broadcast S512x1 (Scalar.ofBits (F := Ideal) .f32 0x3F800000#32)) g) hb) v4) (ix2 r h)
      = g (ix2 r (0 : Fin 1)) * v32 (ix2 r h) + (Ideal.ofBits .f32 0x3F800000#32 - g (ix2 r (0 : Fin 1))) * v4 (ix2 r h) := by
  have e1 : broadcastTo S512x1024 g hb (ix2 r h) = g (ix2 r (0 : Fin 1)) := broadcastTo_a1_ab_apply g hb r h
  have e2 : broadcastTo S512x1024 (subf (broadcast S512x1 (Scalar.ofBits (F := Ideal) .f32 0x3F800000#32)) g) hb (ix2 r h)
      = Ideal.ofBits .f32 0x3F800000#32 - g (ix2 r (0 : Fin 1)) := broadcastTo_a1_ab_apply _ hb r h
  exact congrArg₂ (· + ·) (congrArg (· * v32 (ix2 r h)) e1) (congrArg (· * v4 (ix2 r h)) e2)

/-- The stored block, entry (0, r, h): the gate's logistic of (o-row · first gate column + p-row · second gate column + bias)
    mixing o and p. -/
theorem pay1_apply (v4 : FVec Ideal S512x1024 .f32) (v5 : FVec Ideal S512x1024 .bf16) (v32 : FVec Ideal S512x1024 .f32)
    (v33 : FVec Ideal S512x1024 .bf16) (v35 : FVec Ideal S1024x1 .bf16) (v37 : Vec Ideal S1024x1 .bf16) (v41 : Vec Ideal S1 .f32)
    (r : Fin 512) (h : Fin 1024) :
    k0_pay1 (F := Ideal) v4 v5 v32 v33 v35 v37 v41 (ix3 0 r h)
      = Ideal.logistic (((∑ k : Fin 1024, v33 (ix2 r k) * v35 (ix2 k 0)) + ∑ k : Fin 1024, v5 (ix2 r k) * v37 (ix2 k 0)) + v41 (ix1 0))
          * v32 (ix2 r h)
        + (Ideal.ofBits .f32 0x3F800000#32
            - Ideal.logistic (((∑ k : Fin 1024, v33 (ix2 r k) * v35 (ix2 k 0)) + ∑ k : Fin 1024, v5 (ix2 r k) * v37 (ix2 k 0)) + v41 (ix1 0)))
          * v4 (ix2 r h) := by
  unfold k0_pay1
  refine (shapeCast_ab_1ab_apply _ _ 0 r h).trans ?_
  refine (mix_apply _ v32 v4 _ r h).trans ?_
  have eg := gate_apply v5 v33 v35 v37 v41 shapeCasts_S1024x1_S1024x1 shapeCasts_S1_S1x1 broadcasts_S1x1_S512x1 r
  exact congrArg (fun g => g * v32 (ix2 r h) + (Ideal.ofBits .f32 0x3F800000#32 - g) * v4 (ix2 r h)) eg

end Cert.Attn

end
-- ==== Proof.PayAttn.lean ====
/-
  The kernel's attention payload read at an index, at the ideal values: the query projection of a row of the p block
  against the key scratch, the softmax of the 64 scores, the scale word, the weighted sum of the value scratch's rows,
  and the residual.
-/
import proofs.«125770_j36558761624275_1_alg».proof.Proof.Gen.KernelIdeal.Skeleton
import proofs.«125770_j36558761624275_1_alg».proof.Proof.Spec
import proofs.«125770_j36558761624275_1_alg».proof.Proof.PayKV
import Idealize.ShloMosaic.PureOps.Ideal.Laws
import Idealize.ShloMosaic.Lib.Pipeline.Value
import Idealize.ShloMosaic.Lib.ValueIdx
import Idealize.ShloMosaic.Lib.ValueLayout

noncomputable section

namespace Cert.Attn

open Idealize.ShloMosaic Idealize.ShloMosaic.ValueIdx
open scoped BigOperators

open Cert.KernelIdeal Cert.KernelIdeal.Gen

/-! ### The keepdims column forms -/

/-- An [a] vector cast to a column [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column of a [512] vector spread over 64 lanes reads, at (r, l), the vector at r. -/
theorem column_apply (v : FVec Ideal S512 .f32) (r : Fin 512) (l : Fin 64) :
    broadcastTo S512x64 (shapeCast S512x1 v shapeCasts_S512_S512x1) broadcasts_S512x1_S512x64 (ix2 r l) = v (ix1 r) :=
  (broadcastTo_a1_ab_apply _ broadcasts_S512x1_S512x64 r l).trans (shapeCast_a_a1_apply v shapeCasts_S512_S512x1 r 0)

/-- The bias row [1024] spread over 512 rows reads, at (r, c), the bias at c. -/
theorem biasRow_apply (v : FVec Ideal S1024 .f32) (r : Fin 512) (c : Fin 1024) :
    broadcastTo S512x1024 (shapeCast S1x1024 v shapeCasts_S1024_S1x1024) broadcasts_S1x1024_S512x1024 (ix2 r c) = v (ix1 c) :=
  (broadcastTo_1b_ab_apply _ broadcasts_S1x1024_S512x1024 r c).trans (shapeCast_a_1a_apply v shapeCasts_S1024_S1x1024 0 c)

/-- The p block without its unit axis reads, at (r, c), the block at (0, r, c). -/
theorem pay5_apply (x0 : Vec Ideal S1x512x1024 .f32) (r : Fin 512) (c : Fin 1024) :
    k0_pay5 (F := Ideal) x0 (ix2 r c) = x0 (ix3 0 r c) := by
  unfold k0_pay5
  exact shapeCast_1ab_ab_apply x0 shapeCasts_S1x512x1024_S512x1024 r c

/-- The same at the narrower format, which at the ideal values is the same number. -/
theorem pay6_apply (x0 : Vec Ideal S1x512x1024 .f32) (r : Fin 512) (c : Fin 1024) :
    k0_pay6 (F := Ideal) x0 (ix2 r c) = x0 (ix3 0 r c) := by
  unfold k0_pay6
  exact pay5_apply x0 r c

/-! ### The three products at an index

Each is the sum, over the one contracted axis, of the left operand's row entry times the right operand's column entry:
the contraction index is re-indexed by its one coordinate, and the operand indices are read axis by axis. -/

theorem lhs_qproj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_qproj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_qproj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_qproj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Entry (r, c) of a [512,1024] by [1024,1024] product into the zero block: the sum over the 1024 contracted positions. -/
theorem matmul_qproj_apply (a : FVec Ideal S512x1024 .bf16) (b : FVec Ideal S1024x1024 .bf16) (r : Fin 512) (c : Fin 1024) :
    matmul dot_S512x1024_S1024x1024_S512x1024_1_0_0_1_n_n none a b (constant (F := Ideal) S512x1024 .f32 0x00000000#32) (ix2 r c)
      = ∑ k : Fin 1024, a (ix2 r k) * b (ix2 k c) := by
  refine (Ideal.matmul_constant_zero_apply dot_S512x1024_S1024x1024_S512x1024_1_0_0_1_n_n none a b (ix2 r c)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun x => Fin.ext (by
    match x with
    | ⟨0, _⟩ => exact lhs_qproj_0 _ _
    | ⟨1, _⟩ => exact (lhs_qproj_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun x => Fin.ext (by
    match x with
    | ⟨0, _⟩ => exact (rhs_qproj_0 _ _).trans hk
    | ⟨1, _⟩ => exact rhs_qproj_1 _ _)
  rw [el, er]

theorem lhs_score_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_score_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_score_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_score_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Entry (r, l) of a [512,1024] by [1024,64] product into the zero block: the sum over the 1024 contracted positions. -/
theorem matmul_score_apply (a : FVec Ideal S512x1024 .bf16) (b : FVec Ideal S1024x64 .bf16) (r : Fin 512) (c : Fin 64) :
    matmul dot_S512x1024_S1024x64_S512x64_1_0_0_1_n_n none a b (constant (F := Ideal) S512x64 .f32 0x00000000#32) (ix2 r c)
      = ∑ k : Fin 1024, a (ix2 r k) * b (ix2 k c) := by
  refine (Ideal.matmul_constant_zero_apply dot_S512x1024_S1024x64_S512x64_1_0_0_1_n_n none a b (ix2 r c)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 r c) ((contrEquiv1 dot_S512x1024_S1024x64_S512x64_1_0_0_1_n_n 1024 rfl rfl).symm k) = ix2 r k := funext fun x => Fin.ext (by
    match x with
    | ⟨0, _⟩ => exact lhs_score_0 _ _
    | ⟨1, _⟩ => exact (lhs_score_1 _ _).trans hk)
  have er : dot_S512x1024_S1024x64_S512x64_1_0_0_1_n_n.rhsIdx (ix2 r c) ((contrEquiv1 dot_S512x1024_S1024x64_S512x64_1_0_0_1_n_n 1024 rfl rfl).symm k) = ix2 k c := funext fun x => Fin.ext (by
    match x with
    | ⟨0, _⟩ => exact (rhs_score_0 _ _).trans hk
    | ⟨1, _⟩ => exact rhs_score_1 _ _)
  rw [el, er]

theorem lhs_mix_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_mix_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_mix_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_mix_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

/-- Entry (r, c) of a [512,64] by [64,1024] product into the zero block: the sum over the 64 contracted positions. -/
theorem matmul_mix_apply (a : FVec Ideal S512x64 .bf16) (b : FVec Ideal S64x1024 .bf16) (r : Fin 512) (c : Fin 1024) :
    matmul dot_S512x64_S64x1024_S512x1024_1_0_0_1_n_n none a b (constant (F := Ideal) S512x1024 .f32 0x00000000#32) (ix2 r c)
      = ∑ k : Fin 64, a (ix2 r k) * b (ix2 k c) := by
  refine (Ideal.matmul_constant_zero_apply dot_S512x64_S64x1024_S512x1024_1_0_0_1_n_n none a b (ix2 r c)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 r c) ((contrEquiv1 dot_S512x64_S64x1024_S512x1024_1_0_0_1_n_n 64 rfl rfl).symm k) = ix2 r k := funext fun x => Fin.ext (by
    match x with
    | ⟨0, _⟩ => exact lhs_mix_0 _ _
    | ⟨1, _⟩ => exact (lhs_mix_1 _ _).trans hk)
  have er : dot_S512x64_S64x1024_S512x1024_1_0_0_1_n_n.rhsIdx (ix2 r c) ((contrEquiv1 dot_S512x64_S64x1024_S512x1024_1_0_0_1_n_n 64 rfl rfl).symm k) = ix2 k c := funext fun x => Fin.ext (by
    match x with
    | ⟨0, _⟩ => exact (rhs_mix_0 _ _).trans hk
    | ⟨1, _⟩ => exact rhs_mix_1 _ _)
  rw [el, er]

/-! ### The two lane reductions of a [512, 64] block at a row -/

/-- The source index over row r with lane l inserted is (r, l). -/
theorem lift_row (r : Fin 512) (l : Fin 64) : reduces_S512x64_S512.lift (ix1 r) l = ix2 r l :=
  funext fun c => Fin.ext (by match c with | ⟨0, _⟩ => rfl | ⟨1, _⟩ => rfl)

/-- The lane maximum from −∞ at row r: the fold of max from −∞ over the row's 64 entries. -/
theorem laneMax_apply (src : FVec Ideal S512x64 .f32) (r : Fin 512) :
    multiReduction (F := Ideal) .maximumf [1] S512 src 0xFF800000#32 reduces_S512x64_S512 (.inl rfl) rfl (ix1 r)
      = (Finset.univ : Finset (Fin 64)).fold max negInf (fun l => src (ix2 r l)) := by
  refine (Ideal.multiReduction_maximumf_single src _ reduces_S512x64_S512 (.inl rfl) rfl (ix1 r)).trans ?_
  exact congrArg (fun f => (Finset.univ : Finset (Fin 64)).fold max negInf f) (funext fun l => congrArg src (lift_row r l))

/-- The lane sum at row r: the sum of the row's 64 entries. -/
theorem laneSum_apply (src : FVec Ideal S512x64 .f32) (r : Fin 512) :
    multiReduction (F := Ideal) .add [1] S512 src 0x00000000#32 reduces_S512x64_S512 (.inl rfl) rfl (ix1 r)
      = ∑ l : Fin 64, src (ix2 r l) := by
  refine (Ideal.multiReduction_add_single src _ reduces_S512x64_S512 (.inl rfl) rfl (ix1 r)).trans ?_
  exact Finset.sum_congr rfl fun l _ => congrArg src (lift_row r l)

/-- The row maximum as the kernel takes it, the maximum of −∞ and the lane maximum, is the specification's. -/
theorem rowMaxVec_apply (src : FVec Ideal S512x64 .f32) (r : Fin 512) :
    maximumf (broadcast S512 (Scalar.ofBits (F := Ideal) .f32 0xFF800000#32))
        (multiReduction (F := Ideal) .maximumf [1] S512 src 0xFF800000#32 reduces_S512x64_S512 (.inl rfl) rfl) (ix1 r)
      = rowMax (fun l => src (ix2 r l)) :=
  congrArg (max negInf) (laneMax_apply src r)

/-- The exponential of a block minus a per-row number, at (r, l). -/
theorem expShift_apply (src : FVec Ideal S512x64 .f32) (m : FVec Ideal S512 .f32) (r : Fin 512) (l : Fin 64) :
    exp (subf src (broadcastTo S512x64 (shapeCast S512x1 m shapeCasts_S512_S512x1) broadcasts_S512x1_S512x64)) (ix2 r l)
      = Ideal.exp (src (ix2 r l) - m (ix1 r)) :=
  congrArg (fun t => Ideal.exp (src (ix2 r l) - t)) (column_apply m r l)

/-- A block divided by a per-row number, at (r, l). -/
theorem divCol_apply (e : FVec Ideal S512x64 .f32) (d : FVec Ideal S512 .f32) (r : Fin 512) (l : Fin 64) :
    divf e (broadcastTo S512x64 (shapeCast S512x1 d shapeCasts_S512_S512x1) broadcasts_S512x1_S512x64) (ix2 r l)
      = Ideal.div (e (ix2 r l)) (d (ix1 r)) :=
  congrArg (Ideal.div (e (ix2 r l))) (column_apply d r l)

/-! ### The softmax of a row, as the kernel computes it -/

/-- With m the row maxima of a block, e the exponentials of the block minus its row maximum and d the row sums of e,
    the quotient e / d at (r, l) is the specification's softmax of row r at l. -/
theorem softRow_apply (src : FVec Ideal S512x64 .f32) (m : FVec Ideal S512 .f32) (e : FVec Ideal S512x64 .f32) (d : FVec Ideal S512 .f32)
    (hm : m = maximumf (broadcast S512 (Scalar.ofBits (F := Ideal) .f32 0xFF800000#32))
        (multiReduction (F := Ideal) .maximumf [1] S512 src 0xFF800000#32 reduces_S512x64_S512 (.inl rfl) rfl))
    (he : e = exp (subf src (broadcastTo S512x64 (shapeCast S512x1 m shapeCasts_S512_S512x1) broadcasts_S512x1_S512x64)))
    (hd : d = multiReduction (F := Ideal) .add [1] S512 e 0x00000000#32 reduces_S512x64_S512 (.inl rfl) rfl)
    (r : Fin 512) (l : Fin 64) :
    divf e (broadcastTo S512x64 (shapeCast S512x1 d shapeCasts_S512_S512x1) broadcasts_S512x1_S512x64) (ix2 r l)
      = softmax (fun l' => src (ix2 r l')) l := by
  have hexp : ∀ l' : Fin 64, e (ix2 r l') = Ideal.exp (src (ix2 r l') - rowMax (fun l => src (ix2 r l))) := fun l' => by
    rw [he, hm]
    exact (expShift_apply src _ r l').trans (congrArg (fun t => Ideal.exp (src (ix2 r l') - t)) (rowMaxVec_apply src r))
  have hsum : d (ix1 r) = ∑ l' : Fin 64, Ideal.exp (src (ix2 r l') - rowMax (fun l => src (ix2 r l))) := by
    rw [hd]
    exact (laneSum_apply e r).trans (Finset.sum_congr rfl fun l' _ => hexp l')
  refine (divCol_apply e d r l).trans ?_
  unfold softmax
  rw [hexp l, hsum]

/-! ### The scores, and the weighted sum with its residual -/

/-- The score of row r against key l: the projected query row (product with the weights, plus the bias) against column l
    of the key block. The cast of the weights to their own shape and the change of format are the identity. -/
theorem score_apply (a : FVec Ideal S512x1024 .bf16) (wq : FVec Ideal S1024x1024 .bf16) (bq : FVec Ideal S1024 .f32)
    (ks : FVec Ideal S1024x64 .bf16) (r : Fin 512) (l : Fin 64) :
    matmul dot_S512x1024_S1024x64_S512x64_1_0_0_1_n_n none
        (truncf .bf16 (addf (matmul dot_S512x1024_S1024x1024_S512x1024_1_0_0_1_n_n none a
              (shapeCast S1024x1024 wq shapeCasts_S1024x1024_S1024x1024) (constant (F := Ideal) S512x1024 .f32 0x00000000#32))
            (broadcastTo S512x1024 (shapeCast S1x1024 bq shapeCasts_S1024_S1x1024) broadcasts_S1x1024_S512x1024)) bitsLt_bf16_f32)
        ks (constant (F := Ideal) S512x64 .f32 0x00000000#32) (ix2 r l)
      = ∑ h' : Fin 1024, ((∑ k : Fin 1024, a (ix2 r k) * wq (ix2 k h')) + bq (ix1 h')) * ks (ix2 h' l) := by
  refine (matmul_score_apply _ ks r l).trans ?_
  refine Finset.sum_congr rfl fun h' _ => ?_
  refine congrArg (· * ks (ix2 h' l)) ?_
  refine (truncf_apply (ψ := .bf16) _ bitsLt_bf16_f32 (ix2 r h')).trans ((addf_apply _ _ (ix2 r h')).trans ?_)
  refine congrArg₂ (· + ·) ?_ (biasRow_apply bq r h')
  refine (matmul_qproj_apply a _ r h').trans ?_
  exact Finset.sum_congr rfl fun k _ =>
    congrArg (a (ix2 r k) * ·) (congrFun (shapeCast_self wq shapeCasts_S1024x1024_S1024x1024) (ix2 k h'))

/-- The weights times the scale word, against column h of the value block, plus the residual, at (r, h). -/
theorem mixResid_apply (w : FVec Ideal S512x64 .f32) (vs : FVec Ideal S64x1024 .bf16) (p : FVec Ideal S512x1024 .f32)
    (r : Fin 512) (h : Fin 1024) :
    addf (matmul dot_S512x64_S64x1024_S512x1024_1_0_0_1_n_n none
        (truncf .bf16 (mulf w (broadcast S512x64 (Scalar.ofBits (F := Ideal) .f32 0x3D000000#32))) bitsLt_bf16_f32) vs
        (constant (F := Ideal) S512x1024 .f32 0x00000000#32)) p (ix2 r h)
      = (∑ l : Fin 64, (w (ix2 r l) * Ideal.ofBits .f32 0x3D000000#32) * vs (ix2 l h)) + p (ix2 r h) := by
  refine (addf_apply _ _ _).trans ?_
  exact congrArg (· + p (ix2 r h)) (matmul_mix_apply _ vs r h)

/-! ### The payload -/

/-- Entry (r, h) of the attended block plus residual, from the p block, the query weights and bias, and the two scratch buffers. -/
theorem pay7_apply (x0 : Vec Ideal S1x512x1024 .f32) (wq : Vec Ideal S1024x1024 .bf16) (bq : Vec Ideal S1024 .f32)
    (ks : Vec Ideal S1024x64 .bf16) (vs : Vec Ideal S64x1024 .bf16) (r : Fin 512) (h : Fin 1024) :
    k0_pay7 (F := Ideal) x0 wq bq ks vs (ix2 r h)
      = (∑ l : Fin 64,
          (softmax (fun l' => ∑ h' : Fin 1024, ((∑ k : Fin 1024, x0 (ix3 0 r k) * wq (ix2 k h')) + bq (ix1 h')) * ks (ix2 h' l')) l
              * Ideal.ofBits .f32 0x3D000000#32) * vs (ix2 l h))
        + x0 (ix3 0 r h) := by
  unfold k0_pay7
  -- the last product and the residual; then, lane by lane, the softmax of the scores; then each score
  refine (mixResid_apply _ vs _ r h).trans ?_
  refine congrArg₂ (· + ·) (Finset.sum_congr rfl fun l _ => ?_) (pay5_apply x0 r h)
  refine congrArg (· * vs (ix2 l h)) (congrArg (· * Ideal.ofBits .f32 0x3D000000#32) ?_)
  refine (softRow_apply _ _ _ _ rfl rfl rfl r l).trans ?_
  refine congrArg (fun z => softmax z l) (funext fun l' => ?_)
  refine (score_apply (k0_pay6 x0) wq bq ks r l').trans ?_
  exact Finset.sum_congr rfl fun h' _ => congrArg (· * ks (ix2 h' l'))
    (congrArg (· + bq (ix1 h')) (Finset.sum_congr rfl fun k _ => congrArg (· * wq (ix2 k h')) (pay6_apply x0 r k)))

end Cert.Attn

end
-- ==== Proof.KernelValue.lean ====
/-
  The kernel's result array, index by index.

  What a grid point stores is one function (Pieces) of its input blocks and of the two scratch buffers. By induction over
  the grid points the scratch buffers hold, after point t, the transposed key projection and the value projection of
  batch t / 8: a batch's first point stores them, the other seven leave them. With the input blocks read as entries of
  the argument arrays (Blocks) and the payloads read at an index, entry (0, r, h) of point t's block is the specification's
  result at batch t / 8, row (t % 8)·512 + r, column h. The 64 blocks tile the array, so the array after the run is the
  specification's.
-/
import proofs.«125770_j36558761624275_1_alg».proof.Proof.Gen.KernelIdeal.Value
import proofs.«125770_j36558761624275_1_alg».proof.Proof.Pieces
import proofs.«125770_j36558761624275_1_alg».proof.Proof.Blocks
import proofs.«125770_j36558761624275_1_alg».proof.Proof.PayKV
import proofs.«125770_j36558761624275_1_alg».proof.Proof.PayAttn
import Idealize.ShloMosaic.Lib.ValueLayout

set_option maxRecDepth 16384

noncomputable section

namespace Cert.Attn

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Value
open scoped BigOperators

variable (m : (ℓ : Loc nD τ sig) → Buf (Elt Ideal) ℓ) (ρ : Dev nD → PrngReg)

/-! ## The small payloads -/

theorem pay8_apply (x0 : Vec Ideal S1x512x1024 .f32) (wq : Vec Ideal S1024x1024 .bf16) (bq : Vec Ideal S1024 .f32)
    (ks : Vec Ideal S1024x64 .bf16) (vs : Vec Ideal S64x1024 .bf16) (r : Fin 512) (h : Fin 1024) :
    k0_pay8 (F := Ideal) x0 wq bq ks vs (ix2 r h) = k0_pay7 (F := Ideal) x0 wq bq ks vs (ix2 r h) := rfl

theorem pay9_apply (v34 : Vec Ideal S1024x1 .bf16) (k : Fin 1024) :
    k0_pay9 (F := Ideal) v34 (ix2 k 0) = v34 (ix2 k 0) := by
  unfold k0_pay9
  rw [shapeCast_self]

/-! ## The scratch buffers after each point -/

/-- After point n the key scratch holds, at (h, l), the key projection of row l of batch n / 8 at coordinate h. -/
theorem ks_apply (c : Dev nD) : ∀ (n : ℕ) (hn : n < cfg0.N) (h : Fin 1024) (l : Fin 64),
    (outsAt0 m c n hn).2.1 (ix2 h l) = kvv (argX m c) (argWk m c) (argBk m c) (bOf ⟨n, hn⟩) l h := by
  intro n
  induction n with
  | zero =>
    intro hn h l
    rw [outsAt0_A m c ⟨0, hn⟩ rfl]; dsimp only
    rw [sout0_A_0_eq]
    refine (pay3_apply (xblk m c ⟨0, hn⟩) (wkblk m c ⟨0, hn⟩) (bkblk m c ⟨0, hn⟩) h l).trans ?_
    unfold kvv lin
    rw [bk_apply]
    exact congrArg (· + _) (Finset.sum_congr rfl fun k _ => by rw [x_apply, wk_apply])
  | succ n ih =>
    intro hn h l
    by_cases h0 : (n + 1) % 8 = 0
    · rw [outsAt0_A m c ⟨n + 1, hn⟩ h0]; dsimp only
      rw [sout0_A_0_eq]
      refine (pay3_apply (xblk m c ⟨n + 1, hn⟩) (wkblk m c ⟨n + 1, hn⟩) (bkblk m c ⟨n + 1, hn⟩) h l).trans ?_
      unfold kvv lin
      rw [bk_apply]
      exact congrArg (· + _) (Finset.sum_congr rfl fun k _ => by rw [x_apply, wk_apply])
    · rw [outsAt0_B m c ⟨n + 1, hn⟩ h0]; dsimp only
      unfold sout0_B_0
      refine (ih (Nat.lt_of_succ_lt hn) h l).trans ?_
      refine congrArg (fun b => kvv (argX m c) (argWk m c) (argBk m c) b l h) (Fin.ext ?_)
      show n / 8 = (n + 1) / 8
      omega

/-- After point n the value scratch holds, at (l, h), the value projection of row l of batch n / 8 at coordinate h. -/
theorem vs_apply (c : Dev nD) : ∀ (n : ℕ) (hn : n < cfg0.N) (l : Fin 64) (h : Fin 1024),
    (outsAt0 m c n hn).2.2 (ix2 l h) = kvv (argX m c) (argWv m c) (argBv m c) (bOf ⟨n, hn⟩) l h := by
  intro n
  induction n with
  | zero =>
    intro hn l h
    rw [outsAt0_A m c ⟨0, hn⟩ rfl]; dsimp only
    rw [sout0_A_1_eq]
    refine (pay4_apply (xblk m c ⟨0, hn⟩) (wvblk m c ⟨0, hn⟩) (bvblk m c ⟨0, hn⟩) l h).trans ?_
    unfold kvv lin
    rw [bv_apply]
    exact congrArg (· + _) (Finset.sum_congr rfl fun k _ => by rw [x_apply, wv_apply])
  | succ n ih =>
    intro hn l h
    by_cases h0 : (n + 1) % 8 = 0
    · rw [outsAt0_A m c ⟨n + 1, hn⟩ h0]; dsimp only
      rw [sout0_A_1_eq]
      refine (pay4_apply (xblk m c ⟨n + 1, hn⟩) (wvblk m c ⟨n + 1, hn⟩) (bvblk m c ⟨n + 1, hn⟩) l h).trans ?_
      unfold kvv lin
      rw [bv_apply]
      exact congrArg (· + _) (Finset.sum_congr rfl fun k _ => by rw [x_apply, wv_apply])
    · rw [outsAt0_B m c ⟨n + 1, hn⟩ h0]; dsimp only
      unfold sout0_B_1
      refine (ih (Nat.lt_of_succ_lt hn) l h).trans ?_
      refine congrArg (fun b => kvv (argX m c) (argWv m c) (argBv m c) b l h) (Fin.ext ?_)
      show n / 8 = (n + 1) / 8
      omega

/-! ## The stored block -/

/-- What point t stores is the block function of its input blocks and of the scratch contents after point t. -/
theorem outsAt_block (c : Dev nD) (t : Fin cfg0.N) :
    (outsAt0 m c t.val t.isLt).1
      = blockOf (pblk m c t) (xblk m c t) (wqblk m c t) (bqblk m c t) (wkblk m c t) (bkblk m c t) (wvblk m c t) (bvblk m c t)
          (g1blk m c t) (g2blk m c t) (bgblk m c t) (outsAt0 m c t.val t.isLt).2.1 (outsAt0 m c t.val t.isLt).2.2 := by
  by_cases h0 : t.val % 8 = 0
  · rw [outsAt0_A m c t h0]; dsimp only
    rw [out0_A_11_eq, sout0_A_0_eq, sout0_A_1_eq]
  · rw [outsAt0_B m c t h0]; dsimp only
    rw [out0_B_11_eq]
    unfold sout0_B_0 sout0_B_1
    rfl

/-- The attended block plus residual at (r, h) is the specification's `o` at batch t / 8, row (t % 8)·512 + r. -/
theorem outv_apply (c : Dev nD) (t : Fin cfg0.N) (r : Fin 512) (h : Fin 1024) :
    k0_pay7 (F := Ideal) (pblk m c t) (wqblk m c t) (bqblk m c t) (outsAt0 m c t.val t.isLt).2.1 (outsAt0 m c t.val t.isLt).2.2 (ix2 r h)
      = outv (argP m c) (argX m c) (argWq m c) (argBq m c) (argWk m c) (argBk m c) (argWv m c) (argBv m c) (bOf t) (sOf t r) h := by
  refine (pay7_apply (pblk m c t) (wqblk m c t) (bqblk m c t) _ _ r h).trans ?_
  have hZ : (fun l' : Fin 64 => ∑ h' : Fin 1024, ((∑ k : Fin 1024, pblk m c t (ix3 0 r k) * wqblk m c t (ix2 k h')) + bqblk m c t (ix1 h'))
        * (outsAt0 m c t.val t.isLt).2.1 (ix2 h' l'))
      = score (argP m c) (argX m c) (argWq m c) (argBq m c) (argWk m c) (argBk m c) (bOf t) (sOf t r) := by
    funext l'
    unfold score qv lin
    refine Finset.sum_congr rfl fun h' _ => ?_
    rw [ks_apply m c t.val t.isLt h' l', bq_apply]
    exact congrArg (fun z => (z + _) * _) (Finset.sum_congr rfl fun k _ => by rw [p_apply, wq_apply])
  rw [hZ, p_apply]
  unfold outv attn
  rw [ofBits_scale]
  exact congrArg (· + _) (Finset.sum_congr rfl fun l _ => by rw [vs_apply m c t.val t.isLt l h])

/-- Entry (0, r, h) of what point t stores is the specification's result at batch t / 8, row (t % 8)·512 + r, column h. -/
theorem block_apply (c : Dev nD) (t : Fin cfg0.N) (r : Fin 512) (h : Fin 1024) :
    (outsAt0 m c t.val t.isLt).1 (ix3 0 r h)
      = result (argP m c) (argX m c) (argWq m c) (argBq m c) (argWk m c) (argBk m c) (argWv m c) (argBv m c) (argWg m c) (argBg m c) (bOf t) (sOf t r) h := by
  rw [outsAt_block]
  unfold blockOf
  refine (pay1_apply _ _ _ _ _ _ _ r h).trans ?_
  have hgate : (((∑ k : Fin 1024, k0_pay8 (F := Ideal) (pblk m c t) (wqblk m c t) (bqblk m c t) (outsAt0 m c t.val t.isLt).2.1
            (outsAt0 m c t.val t.isLt).2.2 (ix2 r k) * k0_pay9 (F := Ideal) (g1blk m c t) (ix2 k 0))
          + ∑ k : Fin 1024, k0_pay6 (F := Ideal) (pblk m c t) (ix2 r k) * g2blk m c t (ix2 k 0)) + bgblk m c t (ix1 0))
      = gateLogit (argP m c) (argX m c) (argWq m c) (argBq m c) (argWk m c) (argBk m c) (argWv m c) (argBv m c) (argWg m c) (argBg m c) (bOf t) (sOf t r) := by
    unfold gateLogit
    rw [bg_apply]
    refine congrArg (· + _) ?_
    refine congrArg₂ (· + ·) (Finset.sum_congr rfl fun k _ => ?_) (Finset.sum_congr rfl fun k _ => ?_)
    · rw [pay8_apply, outv_apply, pay9_apply, g1_apply]
    · rw [pay6_apply, p_apply, g2_apply]
  rw [hgate, outv_apply, pay5_apply, p_apply]
  rfl

/-! ## From the blocks to the array -/

/-- The specification's result of the argument arrays. -/
abbrev Garr (c : Dev nD) : FVec Ideal S8x4096x1024 .f32 :=
  resultArr (argP m c) (argX m c) (argWq m c) (argBq m c) (argWk m c) (argBk m c) (argWv m c) (argBv m c) (argWg m c) (argBg m c)

/-- What point t stores, as a function on its block. -/
theorem block_eq (c : Dev nD) (t : Fin cfg0.N) :
    (outsAt0 m c t.val t.isLt).1 = fun j : S1x512x1024.Idx => Garr m c (ix3 (bOf t) (sOf t (j 1)) (j 2)) := by
  funext j
  obtain ⟨a, r, h, rfl⟩ : ∃ (a : Fin 1) (r : Fin 512) (h : Fin 1024), j = ix3 a r h := ⟨j 0, j 1, j 2, eq_ix3 j⟩
  obtain rfl : a = 0 := Subsingleton.elim _ _
  exact block_apply m c t r h

/-- What point t writes back is block t of the specification's array. -/
theorem flushed_eq (c : Dev nD) (t : Fin cfg0.N) :
    (dats m 0 c).flushed 11 t = ((cfg0.win 11).blk t).view.read (Elt Ideal) (Garr m c) := by
  rw [flushed11, block_eq]
  obtain ⟨-, -, ⟨e0, e1, e2⟩, -⟩ := idx_facts t
  funext j
  show Garr m c (ix3 (bOf t) (sOf t (j 1)) (j 2)) = Garr m c (((cfg0.win 11).blk t).view.emb j)
  refine congrArg (Garr m c) (funext fun a => Fin.ext ?_)
  have hj0 : (j 0).val < 1 := (j 0).isLt
  match a with
  | ⟨0, _⟩ => show t.val / 8 = win0_11.index t (0 : Fin 3) * 1 + 1 * (j 0).val; omega
  | ⟨1, _⟩ => show t.val % 8 * 512 + (j 1).val = win0_11.index t (1 : Fin 3) * 512 + 1 * (j 1).val; omega
  | ⟨2, _⟩ => show (j 2).val = win0_11.index t (2 : Fin 3) * 1024 + 1 * (j 2).val; omega

/-- An index of the array is in point t's block iff each coordinate is in the block's range on its axis. -/
theorem mem_blk (t : Fin cfg0.N) (i : S8x4096x1024.Idx) :
    i ∈ ((cfg0.win 11).blk t).view.set ↔ ∀ a : Fin 3, win0_11.index t a * S1x512x1024.size a ≤ (i a).val
      ∧ (i a).val < win0_11.index t a * S1x512x1024.size a + S1x512x1024.size a := by
  show i ∈ ((View.whole main_v12).slice (win0_11.rect t)).set ↔ _
  rw [View.set_slice_whole, Rect.mem_set_unit]
  exact Iff.rfl

/-- The 64 blocks tile the array (entry (b, s, h) is in the block of point 8·b + s / 512), so after the run the array is
    the specification's. -/
theorem final (c : Dev nD) : (dats m 0 c).arrAt 11 cfg0.N = Garr m c :=
  (dats m 0 c).arrAt_eq_of_cover 11 (Garr m c) (fun t _ => flushed_eq m c t) fun i => by
    have h0 : (i 0).val < 8 := (i 0).isLt
    have h1 : (i 1).val < 4096 := (i 1).isLt
    have h2 : (i 2).val < 1024 := (i 2).isLt
    have hN : cfg0.N = 64 := N_0
    obtain ⟨n, hn⟩ : ∃ n, n = (i 0).val * 8 + (i 1).val / 512 := ⟨_, rfl⟩
    have hlt : n < cfg0.N := by omega
    refine ⟨⟨n, hlt⟩, flush0_11 _, ?_⟩
    rw [mem_blk]
    obtain ⟨-, -, ⟨e0, e1, e2⟩, -⟩ := idx_facts ⟨n, hlt⟩
    have hv : (⟨n, hlt⟩ : Fin cfg0.N).val = n := rfl
    rw [hv] at e0 e1
    intro a
    match a with
    | ⟨0, _⟩ => show win0_11.index ⟨n, hlt⟩ (0 : Fin 3) * 1 ≤ (i 0).val ∧ (i 0).val < win0_11.index ⟨n, hlt⟩ (0 : Fin 3) * 1 + 1; omega
    | ⟨1, _⟩ => show win0_11.index ⟨n, hlt⟩ (1 : Fin 3) * 512 ≤ (i 1).val ∧ (i 1).val < win0_11.index ⟨n, hlt⟩ (1 : Fin 3) * 512 + 512; omega
    | ⟨2, _⟩ => show win0_11.index ⟨n, hlt⟩ (2 : Fin 3) * 1024 ≤ (i 2).val ∧ (i 2).val < win0_11.index ⟨n, hlt⟩ (2 : Fin 3) * 1024 + 1024; omega

/-- The kernel's run: the result array ends at the specification's result of the argument arrays, which end unchanged. -/
theorem kernel_run : θ_run defs (onTc (τ := τ) (main (F := Ideal))) ⟨m, fun _ => 0, ρ⟩ fun r => ∀ c : Dev nD,
      r.2.mem ((c : Thread nD τ).loc main_v12) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.Attn

end
-- ==== Proof.RefScores.lean ====
/-
  The reference's stages up to the attention weights, read at an index: the three linear layers, the scores, the softmax
  over the 64 keys and the division by the square root of 1024.
-/
import proofs.«125770_j36558761624275_1_alg».proof.Proof.RefRead
import proofs.«125770_j36558761624275_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.Attn

open Idealize.ShloMosaic Idealize.ShloMosaic.ValueIdx
open scoped BigOperators

open Cert.ReferenceIdeal Cert.ReferenceIdeal.ReadP

/-- The reference's query projection is the specification's. -/
theorem ref_q (x0 : (⟨Cert.ReferenceIdeal.S8x4096x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (b : Fin 8) (s : Fin 4096) (h : Fin 1024) :
    val_main_v3 (F := Ideal) x0 x2 x3 (ix3 b s h) = qv x0 x2 x3 b s h := by
  have el : ∀ k : Fin 1024, lidx_main_v0 (ix3 b s h) k = ix3 b s k := fun k =>
    funext fun a => Fin.ext (by match a with | ⟨0, _⟩ => rfl | ⟨1, _⟩ => rfl | ⟨2, _⟩ => rfl)
  have er : ∀ k : Fin 1024, ridx_main_v0 (ix3 b s h) k = ix2 h k := fun k =>
    funext fun a => Fin.ext (by match a with | ⟨0, _⟩ => rfl | ⟨1, _⟩ => rfl)
  have eb : idx_main_v1 (idx_main_v2 (ix3 b s h)) = ix1 h :=
    funext fun a => Fin.ext (by match a with | ⟨0, _⟩ => rfl)
  rw [val_main_v3_apply, val_main_v0_apply, val_main_v2_apply, val_main_v1_apply, eb]
  simp only [el, er]
  rfl

/-- The reference's key projection is the specification's. -/
theorem ref_k (x1 : (⟨Cert.ReferenceIdeal.S8x64x1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal))
    (b : Fin 8) (l : Fin 64) (h : Fin 1024) :
    val_main_v7 (F := Ideal) x1 x4 x5 (ix3 b l h) = kvv x1 x4 x5 b l h := by
  have el : ∀ k : Fin 1024, lidx_main_v4 (ix3 b l h) k = ix3 b l k := fun k =>
    funext fun a => Fin.ext (by match a with | ⟨0, _⟩ => rfl | ⟨1, _⟩ => rfl | ⟨2, _⟩ => rfl)
  have er : ∀ k : Fin 1024, ridx_main_v4 (ix3 b l h) k = ix2 h k := fun k =>
    funext fun a => Fin.ext (by match a with | ⟨0, _⟩ => rfl | ⟨1, _⟩ => rfl)
  have eb : idx_main_v5 (idx_main_v6 (ix3 b l h)) = ix1 h :=
    funext fun a => Fin.ext (by match a with | ⟨0, _⟩ => rfl)
  rw [val_main_v7_apply, val_main_v4_apply, val_main_v6_apply, val_main_v5_apply, eb]
  simp only [el, er]
  rfl

/-- The reference's value projection is the specification's. -/
theorem ref_v (x1 : (⟨Cert.ReferenceIdeal.S8x64x1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (b : Fin 8) (l : Fin 64) (h : Fin 1024) :
    val_main_v11 (F := Ideal) x1 x6 x7 (ix3 b l h) = kvv x1 x6 x7 b l h := by
  have el : ∀ k : Fin 1024, lidx_main_v8 (ix3 b l h) k = ix3 b l k := fun k =>
    funext fun a => Fin.ext (by match a with | ⟨0, _⟩ => rfl | ⟨1, _⟩ => rfl | ⟨2, _⟩ => rfl)
  have er : ∀ k : Fin 1024, ridx_main_v8 (ix3 b l h) k = ix2 h k := fun k =>
    funext fun a => Fin.ext (by match a with | ⟨0, _⟩ => rfl | ⟨1, _⟩ => rfl)
  have eb : idx_main_v9 (idx_main_v10 (ix3 b l h)) = ix1 h :=
    funext fun a => Fin.ext (by match a with | ⟨0, _⟩ => rfl)
  rw [val_main_v11_apply, val_main_v8_apply, val_main_v10_apply, val_main_v9_apply, eb]
  simp only [el, er]
  rfl

/-- The reference's scores: query row (b, s) against key row (b, l), summed over the 1024 coordinates. -/
theorem ref_score (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) (l : Fin 64) :
    val_main_v12 (F := Ideal) x0 x1 x2 x3 x4 x5 (ix3 b s l) = score x0 x1 x2 x3 x4 x5 b s l := by
  have el : ∀ k : Fin 1024, lidx_main_v12 (ix3 b s l) k = ix3 b s k := fun k =>
    funext fun a => Fin.ext (by match a with | ⟨0, _⟩ => rfl | ⟨1, _⟩ => rfl | ⟨2, _⟩ => rfl)
  have er : ∀ k : Fin 1024, ridx_main_v12 (ix3 b s l) k = ix3 b l k := fun k =>
    funext fun a => Fin.ext (by match a with | ⟨0, _⟩ => rfl | ⟨1, _⟩ => rfl | ⟨2, _⟩ => rfl)
  rw [val_main_v12_apply]
  refine Finset.sum_congr rfl fun k _ => ?_
  rw [el, er, ref_q, ref_k]

/-- The reference's row maximum at (b, s): the maximum of −∞ and the fold of max from −∞ over the 64 scores of the row. -/
theorem ref_rowmax (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) :
    val_main_v15 (F := Ideal) x0 x1 x2 x3 x4 x5 (ix2 b s) = rowMax (score x0 x1 x2 x3 x4 x5 b s) := by
  have hr : Cert.ReferenceIdeal.S8x4096x64.Reduces [2] Cert.ReferenceIdeal.S8x4096 := by decide
  have e13 : val_main_v13 (F := Ideal) x0 x1 x2 x3 x4 x5 (ix2 b s)
      = Finset.univ.fold max negInf (score x0 x1 x2 x3 x4 x5 b s) := by
    unfold val_main_v13
    refine (Host.reduce_eq_fold_single _ _ _ _ hr _ (ix2 b s)).trans ?_
    have ef : val_main_v12 (F := Ideal) x0 x1 x2 x3 x4 x5 ∘ hr.lift (ix2 b s) = score x0 x1 x2 x3 x4 x5 b s := by
      funext l
      have ei : hr.lift (ix2 b s) l = ix3 b s l :=
        funext fun a => Fin.ext (by match a with | ⟨0, _⟩ => rfl | ⟨1, _⟩ => rfl | ⟨2, _⟩ => rfl)
      exact (congrArg (val_main_v12 (F := Ideal) x0 x1 x2 x3 x4 x5) ei).trans (ref_score x0 x1 x2 x3 x4 x5 b s l)
    rw [ef]
    rfl
  rw [val_main_v15_apply, e13, val_main_v14_apply]
  rfl

/-- The reference's exponentials: e to the (score minus the row maximum). -/
theorem ref_exp (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) (l : Fin 64) :
    val_main_v19 (F := Ideal) x0 x1 x2 x3 x4 x5 (ix3 b s l)
      = Ideal.exp (score x0 x1 x2 x3 x4 x5 b s l - rowMax (score x0 x1 x2 x3 x4 x5 b s)) := by
  have e1 : idx_main_v16 (idx_main_v17 (ix3 b s l)) = ix2 b s :=
    funext fun a => Fin.ext (by match a with | ⟨0, _⟩ => rfl | ⟨1, _⟩ => rfl)
  rw [val_main_v19_apply, val_main_v18_apply, val_main_v17_apply, val_main_v16_apply, e1, ref_rowmax, ref_score]
  rfl

/-- The reference's row sum of the exponentials (from the initial value 0). -/
theorem ref_expsum (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) :
    val_main_v20 (F := Ideal) x0 x1 x2 x3 x4 x5 (ix2 b s)
      = ∑ l' : Fin 64, Ideal.exp (score x0 x1 x2 x3 x4 x5 b s l' - rowMax (score x0 x1 x2 x3 x4 x5 b s)) := by
  have e1 : ∀ k : Fin 64, idx_main_v20 (ix2 b s) k = ix3 b s k := fun k =>
    funext fun a => Fin.ext (by match a with | ⟨0, _⟩ => rfl | ⟨1, _⟩ => rfl | ⟨2, _⟩ => rfl)
  rw [val_main_v20_apply, val_main_cst_1_apply, Ideal.ofBits_def, Ideal.ofBits_zero_f32, zero_add]
  refine Finset.sum_congr rfl fun k _ => ?_
  rw [e1, ref_exp]

/-- The reference's softmax quotient. -/
theorem ref_softmax (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) (l : Fin 64) :
    val_main_v23 (F := Ideal) x0 x1 x2 x3 x4 x5 (ix3 b s l) = softmax (score x0 x1 x2 x3 x4 x5 b s) l := by
  have e1 : idx_main_v21 (idx_main_v22 (ix3 b s l)) = ix2 b s :=
    funext fun a => Fin.ext (by match a with | ⟨0, _⟩ => rfl | ⟨1, _⟩ => rfl)
  rw [val_main_v23_apply, val_main_v22_apply, val_main_v21_apply, e1, ref_expsum, ref_exp]
  rfl

/-- The reference's scaled softmax weights are the specification's. -/
theorem ref_attn (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (b : Fin 8) (s : Fin 4096) (l : Fin 64) :
    val_main_v26 (F := Ideal) x0 x1 x2 x3 x4 x5 (ix3 b s l) = attn x0 x1 x2 x3 x4 x5 b s l := by
  rw [val_main_v26_apply, ref_softmax, val_main_v25_apply, val_main_v24_apply, val_main_cst_2_apply]
  exact div_sqrt_1024 _

end Cert.Attn

end
-- ==== Proof.RefResult.lean ====
/-
  The reference's stages after the attention weights, read at an index: the weighted sum of the values plus the residual,
  the concatenation [o, p] against the gate row (a sum over 2048 positions, cut into its two halves), the logistic spelt
  as 1 / (1 + exp (−γ)), and the gated mix.
-/
import proofs.«125770_j36558761624275_1_alg».proof.Proof.RefScores
import Idealize.ShloMosaic.PureOps.Ideal.Laws
import Idealize.ShloMosaic.Lib.Pipeline.Value
import Idealize.ShloMosaic.Lib.ValueIdx
import Idealize.ShloMosaic.Lib.ValueLayout

noncomputable section

namespace Cert.Attn

open Idealize.ShloMosaic Idealize.ShloMosaic.ValueIdx
open scoped BigOperators

open Cert.ReferenceIdeal Cert.ReferenceIdeal.ReadP

/-- The reference's attended values plus residual are the specification's. -/
theorem ref_outv (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (b : Fin 8) (s : Fin 4096) (h : Fin 1024) :
    val_main_v28 (F := Ideal) x0 x1 x2 x3 x4 x5 x6 x7 (ix3 b s h) = outv x0 x1 x2 x3 x4 x5 x6 x7 b s h := by
  refine (val_main_v28_apply x0 x1 x2 x3 x4 x5 x6 x7 (ix3 b s h)).trans ?_
  show val_main_v27 (F := Ideal) x0 x1 x2 x3 x4 x5 x6 x7 (ix3 b s h) + x0 (ix3 b s h) = _
  unfold outv
  refine congrArg (· + x0 (ix3 b s h)) ?_
  -- the contraction over the 64 keys: the weights at (b, s, l) against the values at (b, l, h)
  refine (val_main_v27_apply x0 x1 x2 x3 x4 x5 x6 x7 (ix3 b s h)).trans ?_
  refine Finset.sum_congr rfl fun l _ => ?_
  have el : lidx_main_v27 (ix3 b s h) l = ix3 b s l :=
    funext fun a => Fin.ext (by match a with | ⟨0, _⟩ => rfl | ⟨1, _⟩ => rfl | ⟨2, _⟩ => rfl)
  have er : ridx_main_v27 (ix3 b s h) l = ix3 b l h :=
    funext fun a => Fin.ext (by match a with | ⟨0, _⟩ => rfl | ⟨1, _⟩ => rfl | ⟨2, _⟩ => rfl)
  rw [el, er, ref_attn, ref_v]

/-! ### The gate's logit -/

/-- The word of 1. -/
theorem ofBits_one : Ideal.ofBits .f32 0x3F800000#32 = (1 : EReal) := by
  simp [Ideal.ofBits, Ideal.ieee, -EReal.coe_mul]; norm_num

/-- The first 1024 positions of the concatenation [o, p] along the last axis are o. -/
theorem ref_cat_left (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (b : Fin 8) (s : Fin 4096) (k : Fin 1024) :
    val_main_v29 (F := Ideal) x0 x1 x2 x3 x4 x5 x6 x7 (ix3 b s (⟨k.val, by omega⟩ : Fin 2048))
      = val_main_v28 (F := Ideal) x0 x1 x2 x3 x4 x5 x6 x7 (ix3 b s k) := by
  unfold val_main_v29
  refine concatenate_pair_apply_left (t := S8x4096x2048) (s₁ := S8x4096x1024) (s₂ := S8x4096x1024) 2 _ _ _ _ rfl (ix3 b s k) (fun a => ?_)
  match a with
  | ⟨0, _⟩ => rfl
  | ⟨1, _⟩ => rfl
  | ⟨2, _⟩ => rfl

/-- The last 1024 positions of the concatenation [o, p] along the last axis are p. -/
theorem ref_cat_right (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (b : Fin 8) (s : Fin 4096) (k : Fin 1024) :
    val_main_v29 (F := Ideal) x0 x1 x2 x3 x4 x5 x6 x7 (ix3 b s (⟨1024 + k.val, by omega⟩ : Fin 2048)) = x0 (ix3 b s k) := by
  unfold val_main_v29
  refine concatenate_pair_apply_right (t := S8x4096x2048) (s₁ := S8x4096x1024) (s₂ := S8x4096x1024) 2 _ _ _ _ rfl rfl (ix3 b s k) (fun a ha => ?_) ?_
  · match a, ha with
    | ⟨0, _⟩, _ => rfl
    | ⟨1, _⟩, _ => rfl
    | ⟨2, _⟩, ha => exact absurd (Fin.ext rfl) ha
  · show k.val + 1024 = 1024 + k.val
    omega

/-- The reference's gate logit is the specification's: the sum over the 2048 positions of [o, p] against the gate row,
    cut into its two halves, plus the bias. -/
theorem ref_gate (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal)) (x8 : (⟨Cert.ReferenceIdeal.S1x2048, .f32⟩ : BufTy).Contents (Elt Ideal)) (x9 : (⟨Cert.ReferenceIdeal.S1, .f32⟩ : BufTy).Contents (Elt Ideal))
    (b : Fin 8) (s : Fin 4096) :
    val_main_v33 (F := Ideal) x0 x1 x2 x3 x4 x5 x6 x7 x8 x9 (ix3 b s (0 : Fin 1)) = gateLogit x0 x1 x2 x3 x4 x5 x6 x7 x8 x9 b s := by
  refine (val_main_v33_apply x0 x1 x2 x3 x4 x5 x6 x7 x8 x9 (ix3 b s (0 : Fin 1))).trans ?_
  show val_main_v30 (F := Ideal) x0 x1 x2 x3 x4 x5 x6 x7 x8 (ix3 b s (0 : Fin 1)) + val_main_v32 (F := Ideal) x9 (ix3 b s (0 : Fin 1)) = _
  unfold gateLogit
  refine congrArg₂ (· + ·) ?_ ?_
  · refine (val_main_v30_apply x0 x1 x2 x3 x4 x5 x6 x7 x8 (ix3 b s (0 : Fin 1))).trans ?_
    refine (sum_2048 _).trans ?_
    have el : ∀ K : Fin 2048, lidx_main_v30 (ix3 b s (0 : Fin 1)) K = ix3 b s K := fun K =>
      funext fun a => Fin.ext (by match a with | ⟨0, _⟩ => rfl | ⟨1, _⟩ => rfl | ⟨2, _⟩ => rfl)
    have er : ∀ K : Fin 2048, ridx_main_v30 (ix3 b s (0 : Fin 1)) K = ix2 (0 : Fin 1) K := fun K =>
      funext fun a => Fin.ext (by match a with | ⟨0, _⟩ => rfl | ⟨1, _⟩ => rfl)
    refine congrArg₂ (· + ·) (Finset.sum_congr rfl fun k _ => ?_) (Finset.sum_congr rfl fun k _ => ?_)
    · rw [el, er, ref_cat_left, ref_outv]
    · rw [el, er, ref_cat_right]
  · refine (val_main_v32_apply x9 _).trans ((val_main_v31_apply x9 _).trans ?_)
    exact congrArg x9 (funext fun a => Fin.ext (by match a with | ⟨0, _⟩ => rfl))

/-- The reference's gate, spelt 1 / (1 + exp (−γ)) with the word of 1, is the logistic of the specification's logit. -/
theorem ref_sigma (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal)) (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal)) (x8 : (⟨Cert.ReferenceIdeal.S1x2048, .f32⟩ : BufTy).Contents (Elt Ideal)) (x9 : (⟨Cert.ReferenceIdeal.S1, .f32⟩ : BufTy).Contents (Elt Ideal))
    (b : Fin 8) (s : Fin 4096) :
    val_main_v39 (F := Ideal) x0 x1 x2 x3 x4 x5 x6 x7 x8 x9 (ix3 b s (0 : Fin 1)) = Ideal.logistic (gateLogit x0 x1 x2 x3 x4 x5 x6 x7 x8 x9 b s) := by
  rw [val_main_v39_apply, val_main_v38_apply, val_main_cst_4_apply, val_main_v37_apply, val_main_v36_apply,
    val_main_cst_3_apply, val_main_v35_apply, val_main_v34_apply, ref_gate]
  show Ideal.div (Ideal.ofBits .f32 0x3F800000#32)
      (Ideal.ofBits .f32 0x3F800000#32 + Ideal.exp (-(gateLogit x0 x1 x2 x3 x4 x5 x6 x7 x8 x9 b s))) = _
  rw [ofBits_one]
  rfl

/-- The reference's result is the specification's array. -/
theorem ref_eq (x0 : (⟨Cert.ReferenceIdeal.S8x4096x1024, .f32⟩ : BufTy).Contents (Elt Ideal)) (x1 : (⟨Cert.ReferenceIdeal.S8x64x1024, .f32⟩ : BufTy).Contents (Elt Ideal)) (x2 : (⟨Cert.ReferenceIdeal.S1024x1024, .f32⟩ : BufTy).Contents (Elt Ideal)) (x3 : (⟨Cert.ReferenceIdeal.S1024, .f32⟩ : BufTy).Contents (Elt Ideal))
    (x4 : (⟨Cert.ReferenceIdeal.S1024x1024, .f32⟩ : BufTy).Contents (Elt Ideal)) (x5 : (⟨Cert.ReferenceIdeal.S1024, .f32⟩ : BufTy).Contents (Elt Ideal)) (x6 : (⟨Cert.ReferenceIdeal.S1024x1024, .f32⟩ : BufTy).Contents (Elt Ideal)) (x7 : (⟨Cert.ReferenceIdeal.S1024, .f32⟩ : BufTy).Contents (Elt Ideal))
    (x8 : (⟨Cert.ReferenceIdeal.S1x2048, .f32⟩ : BufTy).Contents (Elt Ideal)) (x9 : (⟨Cert.ReferenceIdeal.S1, .f32⟩ : BufTy).Contents (Elt Ideal)) :
    val_main_v46 (F := Ideal) x0 x1 x2 x3 x4 x5 x6 x7 x8 x9 = resultArr x0 x1 x2 x3 x4 x5 x6 x7 x8 x9 := by
  funext i
  obtain ⟨b, s, h, rfl⟩ : ∃ (b : Fin 8) (s : Fin 4096) (h : Fin 1024), i = ix3 b s h := ⟨i 0, i 1, i 2, eq_ix3 i⟩
  have e40 : idx_main_v40 (ix3 b s h) = ix3 b s (0 : Fin 1) :=
    funext fun a => Fin.ext (by match a with | ⟨0, _⟩ => rfl | ⟨1, _⟩ => rfl | ⟨2, _⟩ => rfl)
  have e44 : idx_main_v44 (ix3 b s h) = ix3 b s (0 : Fin 1) :=
    funext fun a => Fin.ext (by match a with | ⟨0, _⟩ => rfl | ⟨1, _⟩ => rfl | ⟨2, _⟩ => rfl)
  -- the gated mix: the gate times o plus (1 − gate) times p, the gate read at the row's one position
  rw [val_main_v46_apply, val_main_v41_apply, val_main_v45_apply, val_main_v40_apply, val_main_v44_apply, e40, e44,
    val_main_v43_apply, val_main_v42_apply, val_main_cst_5_apply, ref_sigma, ref_outv]
  rfl

end Cert.Attn

end
-- ==== Proof.lean ====
/-
  The kernel computes, per batch, a cross-attention of 4096 query rows against 64 key/value rows — three linear layers,
  the softmax of the scores, a scale applied after the softmax, the attended values plus the residual, and a
  logistic gate mixing that sum with the input — tile by tile over a grid of 8 batches by 8 row tiles, keeping the
  batch's key and value projections in two scratch buffers written at the batch's first tile. The reference computes
  the same on whole arrays. At the ideal values the two agree entry by entry:

  * changing the float format is the identity, so the kernel's narrowed matmul operands are the reference's;
  * each matrix product is the same sum of the same products (the kernel's weights arrive transposed, the reference
    contracts the untransposed ones), and the gate's contraction over 2048 is the kernel's two contractions over 1024;
  * the softmax is spelt the same way on both sides (the row maximum taken from −∞, exp, the row sum, the quotient);
  * the kernel's scale word is 1/32 and the reference divides by √1024 = 32, which on every extended real is the
    product with 1/32;
  * the kernel's logistic is 1 / (1 + exp (−γ)), which is how the reference spells it;
  * the scratch buffers hold, at every tile of a batch, the projections the batch's first tile stored (induction over
    the grid points), and the 64 stored blocks tile the result array.

  No step needs the inputs to be finite. The frames of the two kernel programs are the generated ones; the reference's
  frame is its run with the result dropped; the idealization rewrote nothing, so `preserves` is trivial.
-/
import proofs.«125770_j36558761624275_1_alg».proof.Defs
import proofs.«125770_j36558761624275_1_alg».proof.Proof.Gen.Kernel
import proofs.«125770_j36558761624275_1_alg».proof.Proof.Gen.Kernel.Skeleton
import proofs.«125770_j36558761624275_1_alg».proof.Proof.Gen.Kernel.Launch
import proofs.«125770_j36558761624275_1_alg».proof.Proof.Gen.Kernel.Points
import proofs.«125770_j36558761624275_1_alg».proof.Proof.Gen.Kernel.Frame
import proofs.«125770_j36558761624275_1_alg».proof.Proof.Gen.KernelIdeal
import proofs.«125770_j36558761624275_1_alg».proof.Proof.Gen.KernelIdeal.Skeleton
import proofs.«125770_j36558761624275_1_alg».proof.Proof.Gen.KernelIdeal.Launch
import proofs.«125770_j36558761624275_1_alg».proof.Proof.Gen.KernelIdeal.Points
import proofs.«125770_j36558761624275_1_alg».proof.Proof.Gen.KernelIdeal.Frame
import proofs.«125770_j36558761624275_1_alg».proof.Proof.Gen.ReferenceIdeal
import proofs.«125770_j36558761624275_1_alg».proof.Proof.Gen.Pre_finite_inputs
import proofs.«125770_j36558761624275_1_alg».proof.Proof.Gen.KernelIdeal.Value
import proofs.«125770_j36558761624275_1_alg».proof.Proof.RefRun
import proofs.«125770_j36558761624275_1_alg».proof.Proof.RefRead
import proofs.«125770_j36558761624275_1_alg».proof.Proof.KernelValue
import proofs.«125770_j36558761624275_1_alg».proof.Proof.RefResult
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the result array at the specification's result of the argument arrays, on which the two
    memories agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Attn.Garr m c, Cert.Attn.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v46_eq, Cert.Attn.ref_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
